-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S256x512 : Shape := ⟨2, ![256, 512]⟩
abbrev S256 : Shape := ⟨1, ![256]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x1024x512 .f32) (main_arg1 : FVec F S256x512 .f32) (main_arg2 : FVec F S256 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x1024x512 : Shape := ⟨3, ![16, 1024, 512]⟩
abbrev S256x512 : Shape := ⟨2, ![256, 512]⟩
abbrev S256 : Shape := ⟨1, ![256]⟩
abbrev S1x256 : Shape := ⟨2, ![1, 256]⟩
abbrev S512x256 : Shape := ⟨2, ![512, 256]⟩
abbrev S16x2048x256 : Shape := ⟨3, ![16, 2048, 256]⟩
abbrev S1x1024x512 : Shape := ⟨3, ![1, 1024, 512]⟩
abbrev S1x512x256 : Shape := ⟨3, ![1, 512, 256]⟩
abbrev S1024x512 : Shape := ⟨2, ![1024, 512]⟩
abbrev S1x512x512 : Shape := ⟨3, ![1, 512, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x1024x512, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S256x512, .bf16⟩
  | .hbm, ⟨5, _⟩ => ⟨S512x256, .bf16⟩
  | .hbm, ⟨6, _⟩ => ⟨S16x2048x256, .f32⟩
  | .local _ .vmem, ⟨0, _⟩ => ⟨S1x1024x512, .f32⟩
  | .local _ .vmem, ⟨1, _⟩ => ⟨S1x1024x512, .f32⟩
  | .local _ .vmem, ⟨2, _⟩ => ⟨S512x256, .bf16⟩
  | .local _ .vmem, ⟨3, _⟩ => ⟨S1x256, .f32⟩
  | .local _ .vmem, ⟨4, _⟩ => ⟨S1x512x256, .f32⟩
  | .local _ .vmem, ⟨5, _⟩ => ⟨S1x512x256, .f32⟩
  | .local _ .vmem, ⟨6, _⟩ => ⟨S1024x512, .bf16⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_4 : Index := 0#32
  ![0, v11.toNat, 0]
def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256_S1x256 : S256.ShapeCasts S1x256
  bitsLt_bf16_f32 : FTy.bits .bf16 < FTy.bits .f32
  transposes_S256x512_S512x256_1_0 : S256x512.Transposes [1, 0] S512x256
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  h_S1x512x512 : 0 < S1x512x512.numel
  shapeCasts_S1x512x512_S512x512 : S1x512x512.ShapeCasts S512x512
  reduces_S512x1024_S512 : S512x1024.Reduces [1] S512
  shapeCasts_S512_S512x1 : S512.ShapeCasts S512x1
  broadcasts_S512x1_S512x1024 : S512x1.Broadcasts S512x1024
  broadcasts_S512x1_S512x512 : S512x1.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S512x512_S1024x512_S512x1024_1_1_0_0_n_n_wf : DotDims.WF S512x512 S1024x512 S512x1024 [1] [1] [0] [0] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  hrank0 : 0 < grid0.rank
  k0_mult1_dvd : ∀ i : grid0.Coords, ∀ (k0_h2 : k0_cond2 i = 1#1), 512 ∣ (k0_mult1 i).toNat
  k0_off1_inb : ∀ i : grid0.Coords, ∀ (k0_h2 : k0_cond2 i = 1#1), ∀ a, (k0_off1 i) a + S1x512x512.size a ≤ S1x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S16x2048x256.size a
  hwx0_3 : ∀ i : grid0.Coords, EltTy.bits .f32 = 32 ∨ (Rect.block (s := S16x2048x256) S1x512x256.size (cc0_transform_3 i) (hinb0_3 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x1024x512 : Shape := ⟨3, ![16, 1024, 512]⟩
abbrev S256x512 : Shape := ⟨2, ![256, 512]⟩
abbrev S256 : Shape := ⟨1, ![256]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x1024x256 : Shape := ⟨3, ![16, 1024, 256]⟩
abbrev S1x1x256 : Shape := ⟨3, ![1, 1, 256]⟩
abbrev S16x2048x256 : Shape := ⟨3, ![16, 2048, 256]⟩
abbrev S1 : Shape := ⟨1, ![1]⟩

abbrev nBuf : Space → Nat
  | .hbm => 31
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S256x512, .f32⟩
  | .hbm, ⟨2, _⟩ => ⟨S256, .f32⟩
  | .hbm, ⟨3, _⟩ => ⟨S16x1024x1024, .f32⟩
  | .hbm, ⟨4, _⟩ => ⟨S_, .f32⟩
  | .hbm, ⟨5, _⟩ => ⟨S16x1024x1024, .f32⟩
  | .hbm, ⟨6, _⟩ => ⟨S16x1024x1024, .f32⟩
  | .hbm, ⟨7, _⟩ => ⟨S_, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024x1, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1024x512, .f32⟩
  | .hbm, ⟨22, _⟩ => ⟨S16x1024x256, .f32⟩
  | .hbm, ⟨23, _⟩ => ⟨S1x1x256, .f32⟩
  | .hbm, ⟨24, _⟩ => ⟨S16x1024x256, .f32⟩
  | .hbm, ⟨25, _⟩ => ⟨S16x1024x256, .f32⟩
  | .hbm, ⟨26, _⟩ => ⟨S_, .f32⟩
  | .hbm, ⟨27, _⟩ => ⟨S16x2048x256, .f32⟩
  | .hbm, ⟨28, _⟩ => ⟨S_, .i32⟩
  | .hbm, ⟨29, _⟩ => ⟨S1, .i32⟩
  | .hbm, ⟨30, _⟩ => ⟨S16x2048x256, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S16x2048x256 : S_.BroadcastsInDim S16x2048x256 (![] : Fin 0 → Fin S16x2048x256.rank)
  bcast_S_S1 : S_.BroadcastsInDim S1 (![] : Fin 0 → Fin S1.rank)
  dot_S16x1024x512_S16x1024x512_S16x1024x1024_2_2_1_1_0_0_wf : DotDims.WF S16x1024x512 S16x1024x512 S16x1024x1024 [2] [2] [1] [1] [0] [0]
  dot_S16x1024x1024_S16x1024x512_S16x1024x512_2_1_1_2_0_0_wf : DotDims.WF S16x1024x1024 S16x1024x512 S16x1024x512 [2] [1] [1] [2] [0] [0]
  dot_S16x1024x512_S256x512_S16x1024x256_2_1_01_0_n_n_wf : DotDims.WF S16x1024x512 S256x512 S16x1024x256 [2] [1] [0, 1] [0] [] []
  scatter_S16x2048x256_S1_S16x1024x256_012_n_1_0_wf : ScatterDims.WF S16x2048x256 S1 S16x1024x256 [0, 1, 2] [] [1] 0

variable [Facts₀]

def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf
def dot_S16x1024x512_S256x512_S16x1024x256_2_1_01_0_n_n : DotDims S16x1024x512 S256x512 S16x1024x256 where
  lhsContracting := [2]
  rhsContracting := [1]
  lhsNonContracting := [0, 1]
  rhsNonContracting := [0]
  lhsBatch := []
  rhsBatch := []
  wf := dot_S16x1024x512_S256x512_S16x1024x256_2_1_01_0_n_n_wf
def scatter_S16x2048x256_S1_S16x1024x256_012_n_1_0 : ScatterDims S16x2048x256 S1 S16x1024x256 where
  updateWindowDims := [0, 1, 2]
  insertedWindowDims := []
  scatterDimsToOperandDims := [1]
  indexVectorDim := 0
  wf := scatter_S16x2048x256_S1_S16x1024x256_012_n_1_0_wf

class Facts : Prop extends Facts₀ where

variable [Facts]
-- ==== Proof.K.Shared.lean ====
/-
  What the three runs of the kernel body and the frame share.

  The grid is 16 batches by 4 query tiles, point `t` being batch `t / 4`, tile `t % 4`.  The body
  branches three times on the tile number alone: tile 0 copies the batch's keys and values into
  the scratch; tiles 0 and 1 compute an output tile from a query tile and the scratch; tiles 2 and
  3 store zeros.  Each condition is decided over the 64 points.  The output window is never idle:
  at every point one of the last two branches stores its whole tile.  The block of the first
  window at a point is the batch's whole slab of the argument array, whichever tile the point is.
-/
import proofs.«408346_j59777354826463_3_alg».proof.Proof.Gen.Kernel.Frame
import proofs.«408346_j59777354826463_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

/-- The first branch: the tile number is zero (the body's own scalar chain). -/
abbrev condFill (i : grid0.Coords) : Prop :=
  (Scalar.cmpi .ne (Scalar.extui (Scalar.cmpi .eq (BitVec.ofNat 32 (i 1).val) 0#32)) 0#32) = 1#1
/-- The second branch: the tile is a query tile. -/
abbrev condQ (i : grid0.Coords) : Prop := k0_cond2 i = 1#1
/-- The third branch: the tile is padding. -/
abbrev condPad (i : grid0.Coords) : Prop := k0_cond3 i = 1#1

theorem hFill : ∀ t : Fin cfg0.N, condFill (grid0.coords t) ↔ t.val % 4 = 0 :=
  (by decide +kernel : ∀ t : Fin grid0.N, condFill (grid0.coords t) ↔ t.val % 4 = 0)
theorem hQ : ∀ t : Fin cfg0.N, condQ (grid0.coords t) ↔ t.val % 4 < 2 :=
  (by decide +kernel : ∀ t : Fin grid0.N, condQ (grid0.coords t) ↔ t.val % 4 < 2)
theorem hPad : ∀ t : Fin cfg0.N, condPad (grid0.coords t) ↔ 2 ≤ t.val % 4 :=
  (by decide +kernel : ∀ t : Fin grid0.N, condPad (grid0.coords t) ↔ 2 ≤ t.val % 4)

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The memrefs the body is called with -/

abbrev mq (t : Fin cfg0.N) : Memref sig .tc .vmem S1x1024x512 .f32 := win0_0.stage (cfg0.slots t 0)
abbrev hmq (t : Fin cfg0.N) : (mq t).IsWhole := hstage0_0 ((cfg0.slots t 0).cast nbuf0_0)
abbrev mw (t : Fin cfg0.N) : Memref sig .tc .vmem S512x256 .bf16 := win0_1.stage (cfg0.slots t 1)
abbrev hmw (t : Fin cfg0.N) : (mw t).IsWhole := hstage0_1 ((cfg0.slots t 1).cast nbuf0_1)
abbrev mb (t : Fin cfg0.N) : Memref sig .tc .vmem S1x256 .f32 := win0_2.stage (cfg0.slots t 2)
abbrev hmb (t : Fin cfg0.N) : (mb t).IsWhole := hstage0_2 ((cfg0.slots t 2).cast nbuf0_2)
abbrev mo (t : Fin cfg0.N) : Memref sig .tc .vmem S1x512x256 .f32 := win0_3.stage (cfg0.slots t 3)
abbrev hmo (t : Fin cfg0.N) : (mo t).IsWhole := hstage0_3 ((cfg0.slots t 3).cast nbuf0_3)
/-- The scratch: a whole buffer of the kernel's own, kept from point to point. -/
abbrev msc : Memref sig .tc .vmem S1024x512 .bf16 := Memref.whole cc0_scratch0
/-- One staging buffer of the output window and the scratch, as views contents are stated through. -/
abbrev vOut : View sig .tc .vmem S1x512x256 .f32 := (Memref.whole cc0_stg3_0 : Memref sig .tc .vmem S1x512x256 .f32).view
abbrev vSc : View sig .tc .vmem S1024x512 .bf16 := msc.view

/-- The region's own invariant with the scratch as an owned memref. -/
theorem PhiA_eq (c : Dev nD) :
    (Pipeline.ΦA spec0 c : sProp 𝕄)
      = iprop(iprop((∃ d, owns (c : Thread nD τ) msc fullShare d)) ∗ (∃ r, prngReg c r)) := by
  unfold Pipeline.ΦA; rw [scopedRest0_eq]; simp only [msc, owns_whole]; try rfl

end Cert.Kernel.Hand

end
-- ==== Proof.K.RunPad.lean ====
/-
  The body at a padding tile: the first two branches are skipped, the third stores the zero
  splat over the whole output tile.  The run needs the output tile's buffer only, at any
  contents, and hands it back with that one store written.
-/
import proofs.«408346_j59777354826463_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output tile's buffer at a padding tile, with the proof
    that from the buffer at anything the body runs to the continuation holding it so written. -/
noncomputable def runPad (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole)
    (hf : ¬condFill i) (hq : ¬condQ i) (hp : condPad i) :
    { L3 : List (View.Piece (Elt F) S1x512x256 .f32) //
      ∀ (E : Set ℕ) (K : PUnit → sProp 𝕄),
        iprop((∃ d, owns (c : Thread nD τ) arg5 fullShare d)
            ∗ (iprop((∃ f, arg5.view.loc (c : Thread nD τ) ↦[arg5.view.set]{fullShare} arg5.view.writes (Elt F) f L3)) -∗ K ⟨⟩))
          ⊢ wp frame (wpE (defs₀ (F := F)) Variants.none c none) E (cc0__attn_proj_kernel i arg2 harg2 arg3 harg3 arg4 harg4 arg5 harg5 arg6 harg6) K } := by
  refine ⟨?_, fun E K => ?run⟩
  case run =>
    simp only [cc0__attn_proj_kernel_eq_skeleton]; unfold cc0__attn_proj_kernel_skel
    unfold owns
    iintro ⟨⟨%d3, %f3, -, H3⟩, Hk⟩
    sl_exec (disch := first | exact hf | exact hq | exact hp)
    sl_step
    iapply Hk
    iexists _; iexact H3

end Cert.Kernel.Hand

end
-- ==== Proof.K.RunQ.lean ====
/-
  The body at the second query tile of a batch: the copy into the scratch is skipped, the
  scratch still holds what the batch's first tile put there.  The body loads its query rows
  out of the batch's slab, the scratch, the staged weights and bias, and stores the computed
  tile over the whole output buffer; every buffer it only reads comes back as it was.
-/
import proofs.«408346_j59777354826463_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output tile's buffer at a query tile that does not
    fill the scratch, as a function of the contents it is handed, with its run. -/
noncomputable def runQ (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole)
    (hf : ¬condFill i) (hq : condQ i) (hp : ¬condPad i)
    (x0 : Vec F S1x1024x512 .f32) (x1 : Vec F S512x256 .bf16) (x2 : Vec F S1x256 .f32) (xs : Vec F S1024x512 .bf16) :
    { L3 : List (View.Piece (Elt F) S1x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ owns (c : Thread nD τ) arg6 fullShare xs) -∗ K ⟨⟩))
          ⊢ wp frame (wpE (defs₀ (F := F)) Variants.none c none) E (cc0__attn_proj_kernel i arg2 harg2 arg3 harg3 arg4 harg4 arg5 harg5 arg6 harg6) K } := by
  refine ⟨?_, fun E K => ?run⟩
  case run =>
    simp only [cc0__attn_proj_kernel_eq_skeleton]; unfold cc0__attn_proj_kernel_skel
    unfold owns
    iintro ⟨⟨%f0, %hf0, H0⟩, ⟨%f1, %hf1, H1⟩, ⟨%f2, %hf2, H2⟩, ⟨%d3, %f3, -, H3⟩, ⟨%f6, %hf6, H6⟩, Hk⟩
    obtain rfl := harg2.eq_unread hf0; obtain rfl := harg3.eq_unread hf1
    obtain rfl := harg4.eq_unread hf2; obtain rfl := harg6.eq_unread hf6
    sl_exec (disch := first | exact hf | exact hq | exact hp)
    sl_step
    iapply Hk
    isplitl [H0]
    · iexists _; isplitr
      · ipureintro; exact harg2.read_unread _
      iexact H0
    isplitl [H1]
    · iexists _; isplitr
      · ipureintro; exact harg3.read_unread _
      iexact H1
    isplitl [H2]
    · iexists _; isplitr
      · ipureintro; exact harg4.read_unread _
      iexact H2
    isplitl [H3]
    · iexists _; iexact H3
    iexists _; isplitr
    · ipureintro; exact harg6.read_unread _
    iexact H6

end Cert.Kernel.Hand

end
-- ==== Proof.K.RunFill.lean ====
/-
  The body at the first tile of a batch: it copies the batch's slab, narrowed to bf16, over the
  whole scratch, then computes the tile from its query rows and the scratch it has just
  written, and stores it over the whole output buffer.  The scratch comes in at anything and
  goes out with the copy written; the staged inputs come back as they were.
-/
import proofs.«408346_j59777354826463_3_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output tile's buffer and in the scratch at the first
    tile of a batch, as functions of the staged contents, with its run. -/
noncomputable def runFill (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole)
    (hf : condFill i) (hq : condQ i) (hp : ¬condPad i)
    (x0 : Vec F S1x1024x512 .f32) (x1 : Vec F S512x256 .bf16) (x2 : Vec F S1x256 .f32) :
    Σ' (L3 : List (View.Piece (Elt F) S1x512x256 .f32)), { LS : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__attn_proj_kernel i arg2 harg2 arg3 harg3 arg4 harg4 arg5 harg5 arg6 harg6) K } := by
  refine ⟨?_, ?_, fun E K => ?run⟩
  case run =>
    simp only [cc0__attn_proj_kernel_eq_skeleton]; unfold cc0__attn_proj_kernel_skel
    unfold owns
    iintro ⟨⟨%f0, %hf0, H0⟩, ⟨%f1, %hf1, H1⟩, ⟨%f2, %hf2, H2⟩, ⟨%d3, %f3, -, H3⟩, ⟨%d6, %f6, -, H6⟩, Hk⟩
    obtain rfl := harg2.eq_unread hf0; obtain rfl := harg3.eq_unread hf1
    obtain rfl := harg4.eq_unread hf2
    sl_exec (disch := first | exact hf | exact hq | exact hp)
    sl_step
    iapply Hk
    isplitl [H0]
    · iexists _; isplitr
      · ipureintro; exact harg2.read_unread _
      iexact H0
    isplitl [H1]
    · iexists _; isplitr
      · ipureintro; exact harg3.read_unread _
      iexact H1
    isplitl [H2]
    · iexists _; isplitr
      · ipureintro; exact harg4.read_unread _
      iexact H2
    isplitl [H3]
    · iexists _; iexact H3
    iexists _; iexact H6

end Cert.Kernel.Hand

end
-- ==== Proof.K.Covers.lean ====
/-
  Reading a list of whole-buffer stores back, and the fact that each run's stores cover the
  buffer they go into: the output tile gets one store of its whole block in every run, and the
  scratch one store of its whole extent in the run that fills it.  So what a run leaves in a
  buffer does not depend on what the buffer held before.
-/
import proofs.«408346_j59777354826463_3_alg».proof.Proof.K.RunPad
import proofs.«408346_j59777354826463_3_alg».proof.Proof.K.RunQ
import proofs.«408346_j59777354826463_3_alg».proof.Proof.K.RunFill

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A list of stores into the output tile's buffer, read back. -/
abbrev readOut (L : List (View.Piece (Elt F) S1x512x256 .f32)) : Vec F S1x512x256 .f32 :=
  vOut.read (Elt F) (vOut.writes (Elt F) vOut.junk L)
/-- A list of stores into the scratch, read back. -/
abbrev readSc (L : List (View.Piece (Elt F) S1024x512 .bf16)) : Vec F S1024x512 .bf16 :=
  vSc.read (Elt F) (vSc.writes (Elt F) vSc.junk L)

/-- Each run's stores cover the buffer they go into: one whole-buffer store each. -/
theorem coverFillOut (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : condFill i) (hq : condQ i) (hp : ¬condPad i)
    (x0 : Vec F S1x1024x512 .f32) (x1 : Vec F S512x256 .bf16) (x2 : Vec F S1x256 .f32) (y : S1x512x256.Idx) :
    ∃ pc ∈ (runFill c i arg2 harg2 arg3 harg3 arg4 harg4 arg5 harg5 arg6 harg6 hf hq hp x0 x1 x2).1, y ∈ pc.1.set :=
  View.cover_of_tiledL (runFill c i arg2 harg2 arg3 harg3 arg4 harg4 arg5 harg5 arg6 harg6 hf hq hp x0 x1 x2).1 S1x512x256.size (by sl_kernel_rfl) y
theorem coverFillSc (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : condFill i) (hq : condQ i) (hp : ¬condPad i)
    (x0 : Vec F S1x1024x512 .f32) (x1 : Vec F S512x256 .bf16) (x2 : Vec F S1x256 .f32) (y : S1024x512.Idx) :
    ∃ pc ∈ (runFill c i arg2 harg2 arg3 harg3 arg4 harg4 arg5 harg5 arg6 harg6 hf hq hp x0 x1 x2).2.1, y ∈ pc.1.set :=
  View.cover_of_tiledL (runFill c i arg2 harg2 arg3 harg3 arg4 harg4 arg5 harg5 arg6 harg6 hf hq hp x0 x1 x2).2.1 S1024x512.size (by sl_kernel_rfl) y
theorem coverQOut (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : ¬condFill i) (hq : condQ i) (hp : ¬condPad i)
    (x0 : Vec F S1x1024x512 .f32) (x1 : Vec F S512x256 .bf16) (x2 : Vec F S1x256 .f32) (xs : Vec F S1024x512 .bf16) (y : S1x512x256.Idx) :
    ∃ pc ∈ (runQ c i arg2 harg2 arg3 harg3 arg4 harg4 arg5 harg5 arg6 harg6 hf hq hp x0 x1 x2 xs).1, y ∈ pc.1.set :=
  View.cover_of_tiledL (runQ c i arg2 harg2 arg3 harg3 arg4 harg4 arg5 harg5 arg6 harg6 hf hq hp x0 x1 x2 xs).1 S1x512x256.size (by sl_kernel_rfl) y
theorem coverPadOut (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : ¬condFill i) (hq : ¬condQ i) (hp : condPad i)
    (y : S1x512x256.Idx) :
    ∃ pc ∈ (runPad (F := F) c i arg2 harg2 arg3 harg3 arg4 harg4 arg5 harg5 arg6 harg6 hf hq hp).1, y ∈ pc.1.set :=
  View.cover_of_tiledL (runPad (F := F) c i arg2 harg2 arg3 harg3 arg4 harg4 arg5 harg5 arg6 harg6 hf hq hp).1 S1x512x256.size (by sl_kernel_rfl) y

end Cert.Kernel.Hand

end
-- ==== Proof.K.Body.lean ====
/-
  The frame of the kernel: every execution runs to the end without a fault and leaves the
  argument arrays as they were.

  What the body leaves after each grid point is defined by recursion on the point, as a pair: the
  output tile's buffer and the scratch.  At a batch's first tile both are what that run's stores
  leave; at its second tile the output is what the run leaves given the scratch of the point
  before, and the scratch is unchanged; at a padding tile the output is the zero store and the
  scratch is again unchanged.  The region's invariant tracks the scratch at exactly that
  contents between points: before the first point it is anything, after the last it is
  forgotten again.  With the body's three runs this is the body obligation at every point, and
  the launch theorem for a body that carries a scratch gives the run.
-/
import proofs.«408346_j59777354826463_3_alg».proof.Proof.K.Covers

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point, and what their stores leave -/

/-- The run at a batch's first tile, on the point's buffers and blocks. -/
abbrev rFill (c : Dev nD) (t : Fin cfg0.N) (h0 : t.val % 4 = 0) :=
  runFill (F := F) c (grid0.coords t) (mq t) (hmq t) (mw t) (hmw t) (mb t) (hmb t) (mo t) (hmo t) msc (Memref.isWhole_whole _)
    ((hFill t).mpr h0) ((hQ t).mpr (by omega)) (fun h => by have := (hPad t).mp h; omega)
    (iblk m c 0 t) (iblk m c 1 t) (iblk m c 2 t)
/-- The run at a batch's second tile, given the scratch's contents. -/
abbrev rQ (c : Dev nD) (t : Fin cfg0.N) (h0 : ¬t.val % 4 = 0) (h1 : t.val % 4 < 2) (xs : Vec F S1024x512 .bf16) :=
  runQ (F := F) c (grid0.coords t) (mq t) (hmq t) (mw t) (hmw t) (mb t) (hmb t) (mo t) (hmo t) msc (Memref.isWhole_whole _)
    (fun h => h0 ((hFill t).mp h)) ((hQ t).mpr h1) (fun h => by have := (hPad t).mp h; omega)
    (iblk m c 0 t) (iblk m c 1 t) (iblk m c 2 t) xs
/-- The run at a padding tile. -/
abbrev rPad (c : Dev nD) (t : Fin cfg0.N) (h1 : ¬t.val % 4 < 2) :=
  runPad (F := F) c (grid0.coords t) (mq t) (hmq t) (mw t) (hmw t) (mb t) (hmb t) (mo t) (hmo t) msc (Memref.isWhole_whole _)
    (fun h => by have := (hFill t).mp h; omega) (fun h => h1 ((hQ t).mp h)) ((hPad t).mpr (by omega))

/-! ## What the body leaves after each point -/

/-- The output tile's buffer and the scratch after the body at position `n`. -/
def stAt (c : Dev nD) : (n : ℕ) → n < cfg0.N → Vec F S1x512x256 .f32 × Vec F S1024x512 .bf16
  | 0, hn => (readOut (rFill m c ⟨0, hn⟩ (Nat.zero_mod _)).1, readSc (rFill m c ⟨0, hn⟩ (Nat.zero_mod _)).2.1)
  | n + 1, hn =>
    if h0 : (n + 1) % 4 = 0 then
      (readOut (rFill m c ⟨n + 1, hn⟩ h0).1, readSc (rFill m c ⟨n + 1, hn⟩ h0).2.1)
    else if h1 : (n + 1) % 4 < 2 then
      (readOut (rQ m c ⟨n + 1, hn⟩ h0 h1 (stAt c n (Nat.lt_of_succ_lt hn)).2).1, (stAt c n (Nat.lt_of_succ_lt hn)).2)
    else
      (readOut (rPad (F := F) c ⟨n + 1, hn⟩ h1).1, (stAt c n (Nat.lt_of_succ_lt hn)).2)

theorem stAt_fill (c : Dev nD) (t : Fin cfg0.N) (h0 : t.val % 4 = 0) :
    stAt m c t.val t.isLt = (readOut (rFill m c t h0).1, readSc (rFill m c t h0).2.1) := by
  obtain ⟨n, hn⟩ := t
  cases n with
  | zero => rfl
  | succ n => exact dif_pos h0

theorem stAt_q (c : Dev nD) (t : Fin cfg0.N) (h0 : ¬t.val % 4 = 0) (h1 : t.val % 4 < 2) :
    stAt m c t.val t.isLt
      = (readOut (rQ m c t h0 h1 (stAt m c (t.val - 1) (Nat.lt_of_le_of_lt (Nat.sub_le _ _) t.isLt)).2).1,
          (stAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

theorem stAt_pad (c : Dev nD) (t : Fin cfg0.N) (h0 : ¬t.val % 4 = 0) (h1 : ¬t.val % 4 < 2) :
    stAt m c t.val t.isLt
      = (readOut (rPad (F := F) c t h1).1, (stAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-! ## The region's invariant: the scratch tracked between points -/

def PhiS (c : Dev nD) : (n : ℕ) → n ≤ cfg0.N → sProp 𝕄
  | 0, _ => Pipeline.ΦA spec0 c
  | n + 1, hn => iprop(iprop(owns (c : Thread nD τ) msc fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) msc fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) msc fullShare ((stAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem leaves0 (c : Dev nD) (t : Fin cfg0.N) :
    (dats m 0 c).leavesExact 0 t = owns (c : Thread nD τ) (mq t) fullShare (iblk m c 0 t) := by
  unfold Dat.leavesExact; rw [live0 t, after0]
theorem leaves1 (c : Dev nD) (t : Fin cfg0.N) :
    (dats m 0 c).leavesExact 1 t = owns (c : Thread nD τ) (mw t) fullShare (iblk m c 1 t) := by
  unfold Dat.leavesExact; rw [live1 t, after1]
theorem leaves2 (c : Dev nD) (t : Fin cfg0.N) :
    (dats m 0 c).leavesExact 2 t = owns (c : Thread nD τ) (mb t) fullShare (iblk m c 2 t) := by
  unfold Dat.leavesExact; rw [live2 t, after2]
theorem leaves3 (c : Dev nD) (t : Fin cfg0.N) :
    (dats m 0 c).leavesExact 3 t = owns (c : Thread nD τ) (mo t) fullShare ((stAt m c t.val t.isLt).1) := by
  unfold Dat.leavesExact; rw [live3 t, after3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mw t) fullShare ((dats m 0 c).before 1 t d))
    ∗ (∃ d, owns (c : Thread nD τ) (mb t) fullShare ((dats m 0 c).before 2 t d))
    ∗ (∃ d, owns (c : Thread nD τ) (mo t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the tile number says which of
    the three runs applies; the invariant hands over the scratch (at anything before the first
    point, else at what the point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt N_0
  by_cases h0 : t.val % 4 = 0
  · rw [stAt_fill m c t h0]
    dsimp only
    by_cases hz : t.val = 0
    · rw [PhiS_castSucc m c t, PhiS_zero m c _ _ hz, PhiA_eq]
      iintro ⟨⟨⟨%ds, HS⟩, Hg⟩, Ho, ⟨%d0, H0⟩, ⟨%d1, H1⟩, ⟨%d2, H2⟩, ⟨%d3, H3⟩⟩
      iapply ((rFill m c t h0).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillSc (F := F) c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut (F := F) c _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((rFill m c t h0).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillSc (F := F) c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut (F := F) c _ _ _ _ _ _ _ _ _ _ _ _ _ _ _ _ _)
  · have hz : t.val ≠ 0 := fun h => h0 (by rw [h])
    by_cases h1 : t.val % 4 < 2
    · rw [stAt_q m c t h0 h1]
      dsimp only
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((rQ m c t h0 h1 _).2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverQOut (F := F) c _ _ _ _ _ _ _ _ _ _ _ _ _ _ _ _ _ _)
    · rw [stAt_pad m c t h0 h1]
      dsimp only
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((rPad (F := F) c t h1).2 Set.univ _)
      isplitl [H3]; · iexists _; iexact H3
      iintro ⟨%e3, H3⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverPadOut (F := F) c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

set_option backward.isDefEq.respectTransparency.types false in
/-- Every weakly fair execution of the program terminates, and every final state has every
    array of the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Shared.lean ====
/-
  What the three runs of the kernel body and the frame share.

  The grid is 16 batches by 4 query tiles, point `t` being batch `t / 4`, tile `t % 4`.  The body
  branches three times on the tile number alone: tile 0 copies the batch's keys and values into
  the scratch; tiles 0 and 1 compute an output tile from a query tile and the scratch; tiles 2 and
  3 store zeros.  Each condition is decided over the 64 points.  The output window is never idle:
  at every point one of the last two branches stores its whole tile.  The block of the first
  window at a point is the batch's whole slab of the argument array, whichever tile the point is.
-/
import proofs.«408346_j59777354826463_3_alg».proof.Proof.Gen.KernelIdeal.Frame
import proofs.«408346_j59777354826463_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

/-- The first branch: the tile number is zero (the body's own scalar chain). -/
abbrev condFill (i : grid0.Coords) : Prop :=
  (Scalar.cmpi .ne (Scalar.extui (Scalar.cmpi .eq (BitVec.ofNat 32 (i 1).val) 0#32)) 0#32) = 1#1
/-- The second branch: the tile is a query tile. -/
abbrev condQ (i : grid0.Coords) : Prop := k0_cond2 i = 1#1
/-- The third branch: the tile is padding. -/
abbrev condPad (i : grid0.Coords) : Prop := k0_cond3 i = 1#1

theorem hFill : ∀ t : Fin cfg0.N, condFill (grid0.coords t) ↔ t.val % 4 = 0 :=
  (by decide +kernel : ∀ t : Fin grid0.N, condFill (grid0.coords t) ↔ t.val % 4 = 0)
theorem hQ : ∀ t : Fin cfg0.N, condQ (grid0.coords t) ↔ t.val % 4 < 2 :=
  (by decide +kernel : ∀ t : Fin grid0.N, condQ (grid0.coords t) ↔ t.val % 4 < 2)
theorem hPad : ∀ t : Fin cfg0.N, condPad (grid0.coords t) ↔ 2 ≤ t.val % 4 :=
  (by decide +kernel : ∀ t : Fin grid0.N, condPad (grid0.coords t) ↔ 2 ≤ t.val % 4)

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The memrefs the body is called with -/

abbrev mq (t : Fin cfg0.N) : Memref sig .tc .vmem S1x1024x512 .f32 := win0_0.stage (cfg0.slots t 0)
abbrev hmq (t : Fin cfg0.N) : (mq t).IsWhole := hstage0_0 ((cfg0.slots t 0).cast nbuf0_0)
abbrev mw (t : Fin cfg0.N) : Memref sig .tc .vmem S512x256 .bf16 := win0_1.stage (cfg0.slots t 1)
abbrev hmw (t : Fin cfg0.N) : (mw t).IsWhole := hstage0_1 ((cfg0.slots t 1).cast nbuf0_1)
abbrev mb (t : Fin cfg0.N) : Memref sig .tc .vmem S1x256 .f32 := win0_2.stage (cfg0.slots t 2)
abbrev hmb (t : Fin cfg0.N) : (mb t).IsWhole := hstage0_2 ((cfg0.slots t 2).cast nbuf0_2)
abbrev mo (t : Fin cfg0.N) : Memref sig .tc .vmem S1x512x256 .f32 := win0_3.stage (cfg0.slots t 3)
abbrev hmo (t : Fin cfg0.N) : (mo t).IsWhole := hstage0_3 ((cfg0.slots t 3).cast nbuf0_3)
/-- The scratch: a whole buffer of the kernel's own, kept from point to point. -/
abbrev msc : Memref sig .tc .vmem S1024x512 .bf16 := Memref.whole cc0_scratch0
/-- One staging buffer of the output window and the scratch, as views contents are stated through. -/
abbrev vOut : View sig .tc .vmem S1x512x256 .f32 := (Memref.whole cc0_stg3_0 : Memref sig .tc .vmem S1x512x256 .f32).view
abbrev vSc : View sig .tc .vmem S1024x512 .bf16 := msc.view

/-- The region's own invariant with the scratch as an owned memref. -/
theorem PhiA_eq (c : Dev nD) :
    (Pipeline.ΦA spec0 c : sProp 𝕄)
      = iprop(iprop((∃ d, owns (c : Thread nD τ) msc fullShare d)) ∗ (∃ r, prngReg c r)) := by
  unfold Pipeline.ΦA; rw [scopedRest0_eq]; simp only [msc, owns_whole]; try rfl

end Cert.KernelIdeal.Hand

end
-- ==== Proof.KI.RunPad.lean ====
/-
  The body at a padding tile: the first two branches are skipped, the third stores the zero
  splat over the whole output tile.  The run needs the output tile's buffer only, at any
  contents, and hands it back with that one store written.
-/
import proofs.«408346_j59777354826463_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output tile's buffer at a padding tile, with the proof
    that from the buffer at anything the body runs to the continuation holding it so written. -/
noncomputable def runPad (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole)
    (hf : ¬condFill i) (hq : ¬condQ i) (hp : condPad i) :
    { L3 : List (View.Piece (Elt F) S1x512x256 .f32) //
      ∀ (E : Set ℕ) (K : PUnit → sProp 𝕄),
        iprop((∃ d, owns (c : Thread nD τ) arg5 fullShare d)
            ∗ (iprop((∃ f, arg5.view.loc (c : Thread nD τ) ↦[arg5.view.set]{fullShare} arg5.view.writes (Elt F) f L3)) -∗ K ⟨⟩))
          ⊢ wp frame (wpE (defs₀ (F := F)) Variants.none c none) E (cc0__attn_proj_kernel i arg2 harg2 arg3 harg3 arg4 harg4 arg5 harg5 arg6 harg6) K } := by
  refine ⟨?_, fun E K => ?run⟩
  case run =>
    simp only [cc0__attn_proj_kernel_eq_skeleton]; unfold cc0__attn_proj_kernel_skel
    unfold owns
    iintro ⟨⟨%d3, %f3, -, H3⟩, Hk⟩
    sl_exec (disch := first | exact hf | exact hq | exact hp)
    sl_step
    iapply Hk
    iexists _; iexact H3

end Cert.KernelIdeal.Hand

end
-- ==== Proof.KI.RunQ.lean ====
/-
  The body at the second query tile of a batch: the copy into the scratch is skipped, the
  scratch still holds what the batch's first tile put there.  The body loads its query rows
  out of the batch's slab, the scratch, the staged weights and bias, and stores the computed
  tile over the whole output buffer; every buffer it only reads comes back as it was.
-/
import proofs.«408346_j59777354826463_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output tile's buffer at a query tile that does not
    fill the scratch, as a function of the contents it is handed, with its run. -/
noncomputable def runQ (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole)
    (hf : ¬condFill i) (hq : condQ i) (hp : ¬condPad i)
    (x0 : Vec F S1x1024x512 .f32) (x1 : Vec F S512x256 .bf16) (x2 : Vec F S1x256 .f32) (xs : Vec F S1024x512 .bf16) :
    { L3 : List (View.Piece (Elt F) S1x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ owns (c : Thread nD τ) arg6 fullShare xs) -∗ K ⟨⟩))
          ⊢ wp frame (wpE (defs₀ (F := F)) Variants.none c none) E (cc0__attn_proj_kernel i arg2 harg2 arg3 harg3 arg4 harg4 arg5 harg5 arg6 harg6) K } := by
  refine ⟨?_, fun E K => ?run⟩
  case run =>
    simp only [cc0__attn_proj_kernel_eq_skeleton]; unfold cc0__attn_proj_kernel_skel
    unfold owns
    iintro ⟨⟨%f0, %hf0, H0⟩, ⟨%f1, %hf1, H1⟩, ⟨%f2, %hf2, H2⟩, ⟨%d3, %f3, -, H3⟩, ⟨%f6, %hf6, H6⟩, Hk⟩
    obtain rfl := harg2.eq_unread hf0; obtain rfl := harg3.eq_unread hf1
    obtain rfl := harg4.eq_unread hf2; obtain rfl := harg6.eq_unread hf6
    sl_exec (disch := first | exact hf | exact hq | exact hp)
    sl_step
    iapply Hk
    isplitl [H0]
    · iexists _; isplitr
      · ipureintro; exact harg2.read_unread _
      iexact H0
    isplitl [H1]
    · iexists _; isplitr
      · ipureintro; exact harg3.read_unread _
      iexact H1
    isplitl [H2]
    · iexists _; isplitr
      · ipureintro; exact harg4.read_unread _
      iexact H2
    isplitl [H3]
    · iexists _; iexact H3
    iexists _; isplitr
    · ipureintro; exact harg6.read_unread _
    iexact H6

end Cert.KernelIdeal.Hand

end
-- ==== Proof.KI.RunFill.lean ====
/-
  The body at the first tile of a batch: it copies the batch's slab, narrowed to bf16, over the
  whole scratch, then computes the tile from its query rows and the scratch it has just
  written, and stores it over the whole output buffer.  The scratch comes in at anything and
  goes out with the copy written; the staged inputs come back as they were.
-/
import proofs.«408346_j59777354826463_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output tile's buffer and in the scratch at the first
    tile of a batch, as functions of the staged contents, with its run. -/
noncomputable def runFill (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole)
    (hf : condFill i) (hq : condQ i) (hp : ¬condPad i)
    (x0 : Vec F S1x1024x512 .f32) (x1 : Vec F S512x256 .bf16) (x2 : Vec F S1x256 .f32) :
    Σ' (L3 : List (View.Piece (Elt F) S1x512x256 .f32)), { LS : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__attn_proj_kernel i arg2 harg2 arg3 harg3 arg4 harg4 arg5 harg5 arg6 harg6) K } := by
  refine ⟨?_, ?_, fun E K => ?run⟩
  case run =>
    simp only [cc0__attn_proj_kernel_eq_skeleton]; unfold cc0__attn_proj_kernel_skel
    unfold owns
    iintro ⟨⟨%f0, %hf0, H0⟩, ⟨%f1, %hf1, H1⟩, ⟨%f2, %hf2, H2⟩, ⟨%d3, %f3, -, H3⟩, ⟨%d6, %f6, -, H6⟩, Hk⟩
    obtain rfl := harg2.eq_unread hf0; obtain rfl := harg3.eq_unread hf1
    obtain rfl := harg4.eq_unread hf2
    sl_exec (disch := first | exact hf | exact hq | exact hp)
    sl_step
    iapply Hk
    isplitl [H0]
    · iexists _; isplitr
      · ipureintro; exact harg2.read_unread _
      iexact H0
    isplitl [H1]
    · iexists _; isplitr
      · ipureintro; exact harg3.read_unread _
      iexact H1
    isplitl [H2]
    · iexists _; isplitr
      · ipureintro; exact harg4.read_unread _
      iexact H2
    isplitl [H3]
    · iexists _; iexact H3
    iexists _; iexact H6

end Cert.KernelIdeal.Hand

end
-- ==== Proof.KI.Covers.lean ====
/-
  Reading a list of whole-buffer stores back, and the fact that each run's stores cover the
  buffer they go into: the output tile gets one store of its whole block in every run, and the
  scratch one store of its whole extent in the run that fills it.  So what a run leaves in a
  buffer does not depend on what the buffer held before.
-/
import proofs.«408346_j59777354826463_3_alg».proof.Proof.KI.RunPad
import proofs.«408346_j59777354826463_3_alg».proof.Proof.KI.RunQ
import proofs.«408346_j59777354826463_3_alg».proof.Proof.KI.RunFill

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A list of stores into the output tile's buffer, read back. -/
abbrev readOut (L : List (View.Piece (Elt F) S1x512x256 .f32)) : Vec F S1x512x256 .f32 :=
  vOut.read (Elt F) (vOut.writes (Elt F) vOut.junk L)
/-- A list of stores into the scratch, read back. -/
abbrev readSc (L : List (View.Piece (Elt F) S1024x512 .bf16)) : Vec F S1024x512 .bf16 :=
  vSc.read (Elt F) (vSc.writes (Elt F) vSc.junk L)

/-- Each run's stores cover the buffer they go into: one whole-buffer store each. -/
theorem coverFillOut (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : condFill i) (hq : condQ i) (hp : ¬condPad i)
    (x0 : Vec F S1x1024x512 .f32) (x1 : Vec F S512x256 .bf16) (x2 : Vec F S1x256 .f32) (y : S1x512x256.Idx) :
    ∃ pc ∈ (runFill c i arg2 harg2 arg3 harg3 arg4 harg4 arg5 harg5 arg6 harg6 hf hq hp x0 x1 x2).1, y ∈ pc.1.set :=
  View.cover_of_tiledL (runFill c i arg2 harg2 arg3 harg3 arg4 harg4 arg5 harg5 arg6 harg6 hf hq hp x0 x1 x2).1 S1x512x256.size (by sl_kernel_rfl) y
theorem coverFillSc (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : condFill i) (hq : condQ i) (hp : ¬condPad i)
    (x0 : Vec F S1x1024x512 .f32) (x1 : Vec F S512x256 .bf16) (x2 : Vec F S1x256 .f32) (y : S1024x512.Idx) :
    ∃ pc ∈ (runFill c i arg2 harg2 arg3 harg3 arg4 harg4 arg5 harg5 arg6 harg6 hf hq hp x0 x1 x2).2.1, y ∈ pc.1.set :=
  View.cover_of_tiledL (runFill c i arg2 harg2 arg3 harg3 arg4 harg4 arg5 harg5 arg6 harg6 hf hq hp x0 x1 x2).2.1 S1024x512.size (by sl_kernel_rfl) y
theorem coverQOut (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : ¬condFill i) (hq : condQ i) (hp : ¬condPad i)
    (x0 : Vec F S1x1024x512 .f32) (x1 : Vec F S512x256 .bf16) (x2 : Vec F S1x256 .f32) (xs : Vec F S1024x512 .bf16) (y : S1x512x256.Idx) :
    ∃ pc ∈ (runQ c i arg2 harg2 arg3 harg3 arg4 harg4 arg5 harg5 arg6 harg6 hf hq hp x0 x1 x2 xs).1, y ∈ pc.1.set :=
  View.cover_of_tiledL (runQ c i arg2 harg2 arg3 harg3 arg4 harg4 arg5 harg5 arg6 harg6 hf hq hp x0 x1 x2 xs).1 S1x512x256.size (by sl_kernel_rfl) y
theorem coverPadOut (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : ¬condFill i) (hq : ¬condQ i) (hp : condPad i)
    (y : S1x512x256.Idx) :
    ∃ pc ∈ (runPad (F := F) c i arg2 harg2 arg3 harg3 arg4 harg4 arg5 harg5 arg6 harg6 hf hq hp).1, y ∈ pc.1.set :=
  View.cover_of_tiledL (runPad (F := F) c i arg2 harg2 arg3 harg3 arg4 harg4 arg5 harg5 arg6 harg6 hf hq hp).1 S1x512x256.size (by sl_kernel_rfl) y

end Cert.KernelIdeal.Hand

end
-- ==== Proof.KI.Body.lean ====
/-
  The frame of the kernel: every execution runs to the end without a fault and leaves the
  argument arrays as they were.

  What the body leaves after each grid point is defined by recursion on the point, as a pair: the
  output tile's buffer and the scratch.  At a batch's first tile both are what that run's stores
  leave; at its second tile the output is what the run leaves given the scratch of the point
  before, and the scratch is unchanged; at a padding tile the output is the zero store and the
  scratch is again unchanged.  The region's invariant tracks the scratch at exactly that
  contents between points: before the first point it is anything, after the last it is
  forgotten again.  With the body's three runs this is the body obligation at every point, and
  the launch theorem for a body that carries a scratch gives the run.
-/
import proofs.«408346_j59777354826463_3_alg».proof.Proof.KI.Covers

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point, and what their stores leave -/

/-- The run at a batch's first tile, on the point's buffers and blocks. -/
abbrev rFill (c : Dev nD) (t : Fin cfg0.N) (h0 : t.val % 4 = 0) :=
  runFill (F := F) c (grid0.coords t) (mq t) (hmq t) (mw t) (hmw t) (mb t) (hmb t) (mo t) (hmo t) msc (Memref.isWhole_whole _)
    ((hFill t).mpr h0) ((hQ t).mpr (by omega)) (fun h => by have := (hPad t).mp h; omega)
    (iblk m c 0 t) (iblk m c 1 t) (iblk m c 2 t)
/-- The run at a batch's second tile, given the scratch's contents. -/
abbrev rQ (c : Dev nD) (t : Fin cfg0.N) (h0 : ¬t.val % 4 = 0) (h1 : t.val % 4 < 2) (xs : Vec F S1024x512 .bf16) :=
  runQ (F := F) c (grid0.coords t) (mq t) (hmq t) (mw t) (hmw t) (mb t) (hmb t) (mo t) (hmo t) msc (Memref.isWhole_whole _)
    (fun h => h0 ((hFill t).mp h)) ((hQ t).mpr h1) (fun h => by have := (hPad t).mp h; omega)
    (iblk m c 0 t) (iblk m c 1 t) (iblk m c 2 t) xs
/-- The run at a padding tile. -/
abbrev rPad (c : Dev nD) (t : Fin cfg0.N) (h1 : ¬t.val % 4 < 2) :=
  runPad (F := F) c (grid0.coords t) (mq t) (hmq t) (mw t) (hmw t) (mb t) (hmb t) (mo t) (hmo t) msc (Memref.isWhole_whole _)
    (fun h => by have := (hFill t).mp h; omega) (fun h => h1 ((hQ t).mp h)) ((hPad t).mpr (by omega))

/-! ## What the body leaves after each point -/

/-- The output tile's buffer and the scratch after the body at position `n`. -/
def stAt (c : Dev nD) : (n : ℕ) → n < cfg0.N → Vec F S1x512x256 .f32 × Vec F S1024x512 .bf16
  | 0, hn => (readOut (rFill m c ⟨0, hn⟩ (Nat.zero_mod _)).1, readSc (rFill m c ⟨0, hn⟩ (Nat.zero_mod _)).2.1)
  | n + 1, hn =>
    if h0 : (n + 1) % 4 = 0 then
      (readOut (rFill m c ⟨n + 1, hn⟩ h0).1, readSc (rFill m c ⟨n + 1, hn⟩ h0).2.1)
    else if h1 : (n + 1) % 4 < 2 then
      (readOut (rQ m c ⟨n + 1, hn⟩ h0 h1 (stAt c n (Nat.lt_of_succ_lt hn)).2).1, (stAt c n (Nat.lt_of_succ_lt hn)).2)
    else
      (readOut (rPad (F := F) c ⟨n + 1, hn⟩ h1).1, (stAt c n (Nat.lt_of_succ_lt hn)).2)

theorem stAt_fill (c : Dev nD) (t : Fin cfg0.N) (h0 : t.val % 4 = 0) :
    stAt m c t.val t.isLt = (readOut (rFill m c t h0).1, readSc (rFill m c t h0).2.1) := by
  obtain ⟨n, hn⟩ := t
  cases n with
  | zero => rfl
  | succ n => exact dif_pos h0

theorem stAt_q (c : Dev nD) (t : Fin cfg0.N) (h0 : ¬t.val % 4 = 0) (h1 : t.val % 4 < 2) :
    stAt m c t.val t.isLt
      = (readOut (rQ m c t h0 h1 (stAt m c (t.val - 1) (Nat.lt_of_le_of_lt (Nat.sub_le _ _) t.isLt)).2).1,
          (stAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

theorem stAt_pad (c : Dev nD) (t : Fin cfg0.N) (h0 : ¬t.val % 4 = 0) (h1 : ¬t.val % 4 < 2) :
    stAt m c t.val t.isLt
      = (readOut (rPad (F := F) c t h1).1, (stAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-! ## The region's invariant: the scratch tracked between points -/

def PhiS (c : Dev nD) : (n : ℕ) → n ≤ cfg0.N → sProp 𝕄
  | 0, _ => Pipeline.ΦA spec0 c
  | n + 1, hn => iprop(iprop(owns (c : Thread nD τ) msc fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) msc fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) msc fullShare ((stAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem leaves0 (c : Dev nD) (t : Fin cfg0.N) :
    (dats m 0 c).leavesExact 0 t = owns (c : Thread nD τ) (mq t) fullShare (iblk m c 0 t) := by
  unfold Dat.leavesExact; rw [live0 t, after0]
theorem leaves1 (c : Dev nD) (t : Fin cfg0.N) :
    (dats m 0 c).leavesExact 1 t = owns (c : Thread nD τ) (mw t) fullShare (iblk m c 1 t) := by
  unfold Dat.leavesExact; rw [live1 t, after1]
theorem leaves2 (c : Dev nD) (t : Fin cfg0.N) :
    (dats m 0 c).leavesExact 2 t = owns (c : Thread nD τ) (mb t) fullShare (iblk m c 2 t) := by
  unfold Dat.leavesExact; rw [live2 t, after2]
theorem leaves3 (c : Dev nD) (t : Fin cfg0.N) :
    (dats m 0 c).leavesExact 3 t = owns (c : Thread nD τ) (mo t) fullShare ((stAt m c t.val t.isLt).1) := by
  unfold Dat.leavesExact; rw [live3 t, after3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mw t) fullShare ((dats m 0 c).before 1 t d))
    ∗ (∃ d, owns (c : Thread nD τ) (mb t) fullShare ((dats m 0 c).before 2 t d))
    ∗ (∃ d, owns (c : Thread nD τ) (mo t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the tile number says which of
    the three runs applies; the invariant hands over the scratch (at anything before the first
    point, else at what the point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt N_0
  by_cases h0 : t.val % 4 = 0
  · rw [stAt_fill m c t h0]
    dsimp only
    by_cases hz : t.val = 0
    · rw [PhiS_castSucc m c t, PhiS_zero m c _ _ hz, PhiA_eq]
      iintro ⟨⟨⟨%ds, HS⟩, Hg⟩, Ho, ⟨%d0, H0⟩, ⟨%d1, H1⟩, ⟨%d2, H2⟩, ⟨%d3, H3⟩⟩
      iapply ((rFill m c t h0).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillSc (F := F) c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut (F := F) c _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((rFill m c t h0).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillSc (F := F) c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut (F := F) c _ _ _ _ _ _ _ _ _ _ _ _ _ _ _ _ _)
  · have hz : t.val ≠ 0 := fun h => h0 (by rw [h])
    by_cases h1 : t.val % 4 < 2
    · rw [stAt_q m c t h0 h1]
      dsimp only
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((rQ m c t h0 h1 _).2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverQOut (F := F) c _ _ _ _ _ _ _ _ _ _ _ _ _ _ _ _ _ _)
    · rw [stAt_pad m c t h0 h1]
      dsimp only
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((rPad (F := F) c t h1).2 Set.univ _)
      isplitl [H3]; · iexists _; iexact H3
      iintro ⟨%e3, H3⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverPadOut (F := F) c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

set_option backward.isDefEq.respectTransparency.types false in
/-- Every weakly fair execution of the program terminates, and every final state has every
    array of the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Pieces.lean ====
/-
  What each run's stores leave, as the body's named values.

  The run that fills the scratch leaves in it the narrowed copy of the batch's slab, and in the
  output tile the attention-and-projection value computed from the tile's query rows, that same
  copy, the staged weights and the staged bias.  The run at a batch's second tile leaves the
  same value computed from the scratch it was handed.  The run at a padding tile leaves the zero
  splat.  The query rows of tile `k` are rows `512·k … 512·k + 511` of the slab.
-/
import proofs.«408346_j59777354826463_3_alg».proof.Proof.KI.Covers
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rank-3 offsets `[0, 0, 0]` are zero on every axis. -/
private theorem zeros3 : (![0, 0, 0] : Fin 3 → Nat) = fun _ => 0 := funext fun a => by fin_cases a <;> rfl
/-- The rank-2 offsets `[0, 0]` are zero on every axis. -/
private theorem zeros2 : (![0, 0] : Fin 2 → Nat) = fun _ => 0 := funext fun a => by fin_cases a <;> rfl

/-- The query rows the body loads at a query tile, as a function of the slab's contents. -/
def qslice (i : grid0.Coords) (hq : condQ i) (x0 : Vec F S1x1024x512 .f32) : Vec F S1x512x512 .f32 :=
  View.ld (Val := Elt F) x0 (Rect.unit (s := S1x1024x512) (k0_off1 i) S1x512x512.size (k0_off1_inb i hq))

/-- The fill run leaves the narrowed slab in the scratch. -/
theorem readSc_fill (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : condFill i) (hq : condQ i) (hp : ¬condPad i)
    (x0 : Vec F S1x1024x512 .f32) (x1 : Vec F S512x256 .bf16) (x2 : Vec F S1x256 .f32) :
    readSc (runFill c i arg2 harg2 arg3 harg3 arg4 harg4 arg5 harg5 arg6 harg6 hf hq hp x0 x1 x2).2.1 = k0_pay1 x0 := by
  show vSc.read (Elt F) _ = _
  rw [View.read_writes_eq_canon _ _ _ (coverFillSc c i arg2 harg2 arg3 harg3 arg4 harg4 arg5 harg5 arg6 harg6 hf hq hp x0 x1 x2)]
  unfold runFill
  dsimp only
  sl_unfold_words
  rw [View.canon_unit_zero zeros2]
  simp only [View.readAt_eq_ld, harg2.read_unread, View.ld_unit_zero (S := S1x1024x512) zeros3]

/-- The fill run leaves the computed tile in the output buffer, over the scratch it has just written. -/
theorem readOut_fill (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : condFill i) (hq : condQ i) (hp : ¬condPad i)
    (x0 : Vec F S1x1024x512 .f32) (x1 : Vec F S512x256 .bf16) (x2 : Vec F S1x256 .f32) :
    readOut (runFill c i arg2 harg2 arg3 harg3 arg4 harg4 arg5 harg5 arg6 harg6 hf hq hp x0 x1 x2).1 = k0_pay2 (qslice i hq x0) (k0_pay1 x0) x1 x2 := by
  show vOut.read (Elt F) _ = _
  rw [View.read_writes_eq_canon _ _ _ (coverFillOut c i arg2 harg2 arg3 harg3 arg4 harg4 arg5 harg5 arg6 harg6 hf hq hp x0 x1 x2)]
  unfold runFill
  dsimp only
  sl_unfold_words
  rw [View.canon_unit_zero zeros3]
  unfold qslice
  simp only [View.readAt_eq_ld, harg2.read_unread, harg3.read_unread, harg4.read_unread,
    View.ld_unit_zero (S := S1x1024x512) zeros3, View.ld_unit_zero (S := S512x256) zeros2,
    View.ld_unit_zero (S := S1x256) zeros2, View.readCov_unit_zero (S := S1024x512) _ zeros2]
  rfl

/-- The second-tile run leaves the computed tile, over the scratch it was handed. -/
theorem readOut_q (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : ¬condFill i) (hq : condQ i) (hp : ¬condPad i)
    (x0 : Vec F S1x1024x512 .f32) (x1 : Vec F S512x256 .bf16) (x2 : Vec F S1x256 .f32) (xs : Vec F S1024x512 .bf16) :
    readOut (runQ c i arg2 harg2 arg3 harg3 arg4 harg4 arg5 harg5 arg6 harg6 hf hq hp x0 x1 x2 xs).1 = k0_pay2 (qslice i hq x0) xs x1 x2 := by
  show vOut.read (Elt F) _ = _
  rw [View.read_writes_eq_canon _ _ _ (coverQOut c i arg2 harg2 arg3 harg3 arg4 harg4 arg5 harg5 arg6 harg6 hf hq hp x0 x1 x2 xs)]
  unfold runQ
  dsimp only
  sl_unfold_words
  rw [View.canon_unit_zero zeros3]
  unfold qslice
  simp only [View.readAt_eq_ld, harg2.read_unread, harg3.read_unread, harg4.read_unread, harg6.read_unread,
    View.ld_unit_zero (S := S1024x512) zeros2, View.ld_unit_zero (S := S512x256) zeros2,
    View.ld_unit_zero (S := S1x256) zeros2]
  rfl

/-- The padding run leaves the zero splat. -/
theorem readOut_pad (c : Dev nD) (i : grid0.Coords) (arg2 : Memref sig .tc .vmem S1x1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1024x512 .bf16) (harg6 : arg6.IsWhole) (hf : ¬condFill i) (hq : ¬condQ i) (hp : condPad i) :
    readOut (runPad (F := F) c i arg2 harg2 arg3 harg3 arg4 harg4 arg5 harg5 arg6 harg6 hf hq hp).1 = k0_pay3 := by
  show vOut.read (Elt F) _ = _
  rw [View.read_writes_eq_canon _ _ _ (coverPadOut c i arg2 harg2 arg3 harg3 arg4 harg4 arg5 harg5 arg6 harg6 hf hq hp)]
  unfold runPad
  dsimp only
  sl_unfold_words
  rw [View.canon_unit_zero zeros3]

/-- The query rows at an index: row `s` of tile `i 1` is row `512 · (i 1) + s` of the slab. -/
theorem qslice_apply (i : grid0.Coords) (hq : condQ i) (x0 : Vec Ideal S1x1024x512 .f32) (s d : Fin 512)
    (h : (i 1).val * 512 + s.val < 1024) :
    qslice (F := Ideal) i hq x0 (ix3 (0 : Fin 1) s d) = x0 (ix3 (0 : Fin 1) (⟨(i 1).val * 512 + s.val, h⟩ : Fin 1024) d) := by
  show x0 ((Rect.unit (s := S1x1024x512) (k0_off1 i) S1x512x512.size (k0_off1_inb i hq)).idx
    (ix3 (0 : Fin 1) s d)) = _
  refine congrArg x0 (funext fun a => Fin.ext ?_)
  rw [LoadRect.idx_apply]
  show (k0_off1 i) a + 1 * ((ix3 (0 : Fin 1) s d) a).val = _
  rw [k0_off1_eq i]
  match a with
  | ⟨0, _⟩ => rfl
  | ⟨1, _⟩ => show 512 * (i 1).val + 1 * s.val = (i 1).val * 512 + s.val; omega
  | ⟨2, _⟩ => show 0 + 1 * d.val = d.val; omega

end Cert.KernelIdeal.Hand

end
-- ==== Proof.KI.Blocks.lean ====
/-
  Each input window's block at a grid point, read entry by entry out of the memory the program
  was launched with.

  The first window's block at point `t` is the whole slab of batch `t / 4` of the first argument
  array (the window's index map ignores the tile number, and no host operation writes that
  array).  The second window's array is the second argument narrowed to bf16 and transposed by
  two host operations before the region, staged whole at every point: its entry (d, p) is the
  argument's entry (p, d).  The third window's array is the bias reshaped to one row, staged
  whole: its entry (0, p) is the bias's entry p.
-/
import proofs.«408346_j59777354826463_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The batch a grid point belongs to. -/
abbrev batchOf (t : Fin cfg0.N) : Fin 16 := ⟨t.val / 4, by have h : t.val < 64 := lt_of_lt_of_eq t.isLt N_0; omega⟩

/-- The first window's block index at every grid point: the batch on the first axis, 0 on the others. -/
theorem idx0 : ∀ t : Fin cfg0.N, win0_0.index t (0 : Fin 3) = t.val / 4
    ∧ win0_0.index t (1 : Fin 3) = 0 ∧ win0_0.index t (2 : Fin 3) = 0 :=
  (by decide +kernel : ∀ t : Fin grid0.N, _)

/-- The second window's block index at every grid point: 0 on both axes (the array is staged whole). -/
theorem idx1 : ∀ t : Fin cfg0.N, win0_1.index t (0 : Fin 2) = 0 ∧ win0_1.index t (1 : Fin 2) = 0 :=
  (by decide +kernel : ∀ t : Fin grid0.N, _)

/-- The third window's block index at every grid point: 0 on both axes (the array is staged whole). -/
theorem idx2 : ∀ t : Fin cfg0.N, win0_2.index t (0 : Fin 2) = 0 ∧ win0_2.index t (1 : Fin 2) = 0 :=
  (by decide +kernel : ∀ t : Fin grid0.N, _)

/-- Window 0's block at `t`, at row `r` and column `d`: the first argument at (batch of t, r, d). -/
theorem iblk0_apply (c : Dev nD) (t : Fin cfg0.N) (r : Fin 1024) (d : Fin 512) :
    (iblk m c 0 t : S1x1024x512.Idx → EReal) (ix3 (0 : Fin 1) r d)
      = (m ((c : Thread nD τ).loc main_arg0) : S16x1024x512.Idx → EReal) (ix3 (batchOf t) r d) := by
  show V m c main_arg0 (((cfg0.win 0).blk t).view.emb (ix3 (0 : Fin 1) r d)) = _
  rw [V_main_arg0]
  refine congrArg _ ?_
  funext a
  apply Fin.ext
  obtain ⟨e0, e1, e2⟩ := idx0 t
  match a with
  | ⟨0, _⟩ =>
    show win0_0.index t (0 : Fin 3) * 1 + 1 * 0 = t.val / 4
    omega
  | ⟨1, _⟩ =>
    show win0_0.index t (1 : Fin 3) * 1024 + 1 * r.val = r.val
    omega
  | ⟨2, _⟩ =>
    show win0_0.index t (2 : Fin 3) * 512 + 1 * d.val = d.val
    omega

/-- Window 1's block at any point, at (d, p): the second argument at (p, d). -/
theorem iblk1_apply (c : Dev nD) (t : Fin cfg0.N) (d : Fin 512) (p : Fin 256) :
    (iblk m c 1 t : S512x256.Idx → EReal) (ix2 d p)
      = (m ((c : Thread nD τ).loc main_arg1) : S256x512.Idx → EReal) (ix2 p d) := by
  show V m c main_v2 (((cfg0.win 1).blk t).view.emb (ix2 d p)) = _
  -- the block is the whole array: its entry (d, p) sits at the array's index (d, p)
  have hi : ((cfg0.win 1).blk t).view.emb (ix2 d p) = (ix2 d p : S512x256.Idx) := by
    funext a
    apply Fin.ext
    obtain ⟨e0, e1⟩ := idx1 t
    match a with
    | ⟨0, _⟩ =>
      show win0_1.index t (0 : Fin 2) * 512 + 1 * d.val = d.val
      omega
    | ⟨1, _⟩ =>
      show win0_1.index t (1 : Fin 2) * 256 + 1 * p.val = p.val
      omega
  -- the array when the region is entered: the second argument narrowed, then transposed
  have e : (V m c main_v2 : S512x256.Idx → EReal)
      = (transpose S512x256 [1, 0]
          (truncf (F := Ideal) .bf16 (m ((c : Thread nD τ).loc main_arg1) : FVec Ideal S256x512 .f32)
            Facts₀.bitsLt_bf16_f32 : FVec Ideal S256x512 .bf16)
          Facts₀.transposes_S256x512_S512x256_1_0 : S512x256.Idx → EReal) := by
    dsimp only [Gen.V, Gen.hostOps0]
    after_results
  rw [hi, e]
  -- the transpose swaps the coordinates; the narrowing is the identity on extended reals
  exact (transpose_ix2_apply _ _ d p).trans (truncf_apply _ _ _)

/-- Window 2's block at any point, at (0, p): the third argument at p. -/
theorem iblk2_apply (c : Dev nD) (t : Fin cfg0.N) (p : Fin 256) :
    (iblk m c 2 t : S1x256.Idx → EReal) (ix2 (0 : Fin 1) p)
      = (m ((c : Thread nD τ).loc main_arg2) : S256.Idx → EReal) (ix1 p) := by
  show V m c main_v0 (((cfg0.win 2).blk t).view.emb (ix2 (0 : Fin 1) p)) = _
  -- the block is the whole array: its entry (0, p) sits at the array's index (0, p)
  have hi : ((cfg0.win 2).blk t).view.emb (ix2 (0 : Fin 1) p) = (ix2 (0 : Fin 1) p : S1x256.Idx) := by
    funext a
    apply Fin.ext
    obtain ⟨e0, e1⟩ := idx2 t
    match a with
    | ⟨0, _⟩ =>
      show win0_2.index t (0 : Fin 2) * 1 + 1 * 0 = 0
      omega
    | ⟨1, _⟩ =>
      show win0_2.index t (1 : Fin 2) * 256 + 1 * p.val = p.val
      omega
  -- the array when the region is entered: the third argument recast as one row
  have e : (V m c main_v0 : S1x256.Idx → EReal)
      = (shapeCast S1x256 (m ((c : Thread nD τ).loc main_arg2) : S256.Idx → EReal)
          Facts₀.shapeCasts_S256_S1x256 : S1x256.Idx → EReal) := by
    dsimp only [Gen.V, Gen.hostOps0]
    after_results
    rfl
  rw [hi, e]
  -- row-major position p in both shapes
  exact shapeCast_a_1a_apply _ _ (0 : Fin 1) p

end Cert.KernelIdeal.Blocks

end
-- ==== Proof.Spec.lean ====
/-
  The mathematics of this certificate, free of any program: one query row of self-attention
  followed by a linear layer, written in the two arrangements the two programs use.

  For a query row `q : Fin 512 → EReal`, keys and values `KV : Fin 1024 → Fin 512 → EReal`
  (the same array: q = k = v), a weight matrix and a bias:
    • the scores are the inner products of `q` with every row of `KV`, scaled by the literal `cS`
      — the scale applied to `q` before the product (`scK`) or to the product after it (`scR`);
    • the softmax numerators `exp (score − row maximum)` and their sum;
    • the attended row: the numerators' combination of the rows of `KV` divided by the sum
      (`attnK`), or the combination with the normalised weights (`attnR`);
    • the linear layer and the bias.
  The output array has 2048 rows per batch of which only the first 1024 carry a query row; the
  rest hold the zero word.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The scale both programs multiply by: the f32 word nearest `1 / sqrt 512`, the same word in both. -/
abbrev cS : EReal := Ideal.ofBits .f32 0x3D3504F3#32
/-- The value a row maximum starts from: the f32 word of `-∞`. -/
abbrev negInf : EReal := Ideal.ofBits .f32 0xFF800000#32
/-- The f32 zero word, which fills the rows past the sequence length. -/
abbrev zeroW : EReal := Ideal.ofBits .f32 0x00000000#32

/-- Scores with the scale folded into the query row first. -/
def scK (q : Fin 512 → EReal) (KV : Fin 1024 → Fin 512 → EReal) (t : Fin 1024) : EReal :=
  ∑ d : Fin 512, (q d * cS) * KV t d
/-- Scores scaled after the inner product. -/
def scR (q : Fin 512 → EReal) (KV : Fin 1024 → Fin 512 → EReal) (t : Fin 1024) : EReal :=
  (∑ d : Fin 512, q d * KV t d) * cS

/-- The maximum of a row of 1024 scores, folded from `-∞`. -/
def rowMax (f : Fin 1024 → EReal) : EReal := (Finset.univ : Finset (Fin 1024)).fold max negInf f
/-- A softmax numerator. -/
def numer (f : Fin 1024 → EReal) (t : Fin 1024) : EReal := Ideal.exp (f t - rowMax f)
/-- The softmax denominator. -/
def denom (f : Fin 1024 → EReal) : EReal := ∑ t : Fin 1024, numer f t

/-- The attended row, normalised AFTER combining the value rows. -/
def attnK (q : Fin 512 → EReal) (KV : Fin 1024 → Fin 512 → EReal) (d : Fin 512) : EReal :=
  Ideal.div (∑ t : Fin 1024, numer (scK q KV) t * KV t d) (denom (scK q KV))
/-- The attended row, combining the value rows with normalised weights. -/
def attnR (q : Fin 512 → EReal) (KV : Fin 1024 → Fin 512 → EReal) (d : Fin 512) : EReal :=
  ∑ t : Fin 1024, Ideal.div (numer (scR q KV) t) (denom (scR q KV)) * KV t d

/-- One output row, kernel arrangement; the weights are given transposed, `Wt d p`. -/
def rowOutK (q : Fin 512 → EReal) (KV : Fin 1024 → Fin 512 → EReal) (Wt : Fin 512 → Fin 256 → EReal)
    (Bv : Fin 256 → EReal) (p : Fin 256) : EReal :=
  (∑ d : Fin 512, attnK q KV d * Wt d p) + Bv p
/-- One output row, reference arrangement; the weights as given, `W p d`. -/
def rowOutR (q : Fin 512 → EReal) (KV : Fin 1024 → Fin 512 → EReal) (W : Fin 256 → Fin 512 → EReal)
    (Bv : Fin 256 → EReal) (p : Fin 256) : EReal :=
  (∑ d : Fin 512, attnR q KV d * W p d) + Bv p

/-- The whole output array, kernel arrangement, from the three argument arrays. -/
def arrK (x0 : (⟨3, ![16, 1024, 512]⟩ : Shape).Idx → EReal) (x1 : (⟨2, ![256, 512]⟩ : Shape).Idx → EReal)
    (x2 : (⟨1, ![256]⟩ : Shape).Idx → EReal) : (⟨3, ![16, 2048, 256]⟩ : Shape).Idx → EReal := fun i =>
  if h : (i 1).val < 1024 then
    rowOutK (fun d => x0 (ix3 (i 0) (⟨(i 1).val, h⟩ : Fin 1024) d)) (fun t d => x0 (ix3 (i 0) t d))
      (fun d p => x1 (ix2 p d)) (fun p => x2 (ix1 p)) (i 2)
  else zeroW
/-- The whole output array, reference arrangement. -/
def arrR (x0 : (⟨3, ![16, 1024, 512]⟩ : Shape).Idx → EReal) (x1 : (⟨2, ![256, 512]⟩ : Shape).Idx → EReal)
    (x2 : (⟨1, ![256]⟩ : Shape).Idx → EReal) : (⟨3, ![16, 2048, 256]⟩ : Shape).Idx → EReal := fun i =>
  if h : (i 1).val < 1024 then
    rowOutR (fun d => x0 (ix3 (i 0) (⟨(i 1).val, h⟩ : Fin 1024) d)) (fun t d => x0 (ix3 (i 0) t d))
      (fun p d => x1 (ix2 p d)) (fun p => x2 (ix1 p)) (i 2)
  else zeroW

end Cert.AttnSpec

end
-- ==== Proof.Payload.lean ====
/-
  The kernel body's three stored values, read at an index, at the ideal instance.

  The value stored into the scratch is the loaded block itself (a change of float format is the
  identity on extended reals, the two shape casts drop and keep the unit axis).  The value stored
  into the output tile at a query point is, row by row, the attention row of the specification in
  the kernel's arrangement: the tile's row `s` is the query row, the scratch the keys and values,
  the staged weights the transposed matrix, the staged bias a row.  At a padding point the stored
  value is the zero word everywhere.
-/
import proofs.«408346_j59777354826463_3_alg».proof.Proof.Gen.KernelIdeal.Skeleton
import proofs.«408346_j59777354826463_3_alg».proof.Proof.Spec
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-! ## A column kept as a unit axis and spread over a row

A reduction along the lanes leaves one number per row; the program keeps it as a column `[a, 1]`
and spreads it over `[a, b]`.  Read at `(i, j)` the result is the number of row `i`. -/

private theorem column_spread_apply {α : Type} {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  refine (broadcastTo_apply _ hb (ix2 i j) (ix2 i (0 : Fin 1)) fun ax => ?_).trans ?_
  · match ax with
    | ⟨0, _⟩ =>
      show i.val = if a = 1 then 0 else i.val
      split
      · have := i.isLt; omega
      · rfl
    | ⟨1, _⟩ => rfl
  · refine shapeCast_apply x hc _ _ ?_
    rw [Shape.rowMajor_val_one, Shape.rowMajor_val_two]
    show i.val = i.val * 1 + 0
    omega

/-! ## The two lane reductions of a `512 × 1024` block, read at a row -/

/-- The maximum along the lanes, started from the word of `-∞`, is the specification's row maximum
    of that row. -/
private theorem lane_max_apply (X : FVec Ideal S512x1024 .f32) (h : S512x1024.Reduces [1] S512)
    (hφ : FKind.Formats .f32) (hacc : (0xFF800000#32 : BitVec 32) = FKind.maximumf.neutral .f32 hφ) (s : Fin 512) :
    multiReduction .maximumf [1] S512 X 0xFF800000#32 h hφ hacc (ix1 s)
      = Cert.AttnSpec.rowMax fun t => X (ix2 s t) := by
  refine (Ideal.multiReduction_maximumf_single X _ h hφ hacc (ix1 s)).trans ?_
  show (Finset.univ : Finset (Fin 1024)).fold max Cert.AttnSpec.negInf (X ∘ h.lift (ix1 s))
      = (Finset.univ : Finset (Fin 1024)).fold max Cert.AttnSpec.negInf fun t => X (ix2 s t)
  refine congrArg (fun f => (Finset.univ : Finset (Fin 1024)).fold max Cert.AttnSpec.negInf f) (funext fun t => ?_)
  exact congrArg X (funext fun a => Fin.ext (by match a with | ⟨0, _⟩ => rfl | ⟨1, _⟩ => rfl))

/-- The sum along the lanes, started from the zero word, is the sum of that row. -/
private theorem lane_sum_apply (X : FVec Ideal S512x1024 .f32) (h : S512x1024.Reduces [1] S512)
    (hφ : FKind.Formats .f32) (hacc : (0x00000000#32 : BitVec 32) = FKind.add.neutral .f32 hφ) (s : Fin 512) :
    multiReduction .add [1] S512 X 0x00000000#32 h hφ hacc (ix1 s) = ∑ t : Fin 1024, X (ix2 s t) := by
  refine (Ideal.multiReduction_add_single X _ h hφ hacc (ix1 s)).trans ?_
  show ∑ t : Fin 1024, X (h.lift (ix1 s) t) = ∑ t : Fin 1024, X (ix2 s t)
  refine Finset.sum_congr rfl fun t _ => ?_
  exact congrArg X (funext fun a => Fin.ext (by match a with | ⟨0, _⟩ => rfl | ⟨1, _⟩ => rfl))

/-! ## The three matrix products, read at an entry

Each is read as the sum over its one contracted axis.  For each product the four facts below say which
coordinate of an operand's index comes from where: a free axis from the entry's coordinate, the
contracted axis from the summation index. -/

/-! ### Queries against keys: both factors contract their feature axis -/

private theorem scores_q_pos (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
private theorem scores_q_feat (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
private theorem scores_k_pos (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
private theorem scores_k_feat (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- Entry `(s, t)`: the inner product of row `s` of the first factor with row `t` of the second. -/
private theorem scores_apply (Q : FVec Ideal S512x512 .bf16) (K : FVec Ideal S1024x512 .bf16) (s : Fin 512) (t : Fin 1024) :
    matmul dot_S512x512_S1024x512_S512x1024_1_1_0_0_n_n none Q K (constant S512x1024 .f32 0x00000000#32) (ix2 s t)
      = ∑ d : Fin 512, Q (ix2 s d) * K (ix2 t d) := by
  refine (Ideal.matmul_constant_zero_apply dot_S512x512_S1024x512_S512x1024_1_1_0_0_n_n none Q K (ix2 s t)).trans ?_
  rw [← Equiv.sum_comp (contrEquiv1 dot_S512x512_S1024x512_S512x1024_1_1_0_0_n_n 512 rfl rfl).symm]
  refine Finset.sum_congr rfl fun d _ => ?_
  have hd := contrEquiv1_symm_val dot_S512x512_S1024x512_S512x1024_1_1_0_0_n_n 512 rfl rfl d
  have eq : dot_S512x512_S1024x512_S512x1024_1_1_0_0_n_n.lhsIdx (ix2 s t)
      ((contrEquiv1 dot_S512x512_S1024x512_S512x1024_1_1_0_0_n_n 512 rfl rfl).symm d) = ix2 s d :=
    funext fun a => Fin.ext (by
      match a with
      | ⟨0, _⟩ => exact scores_q_pos _ _
      | ⟨1, _⟩ => exact (scores_q_feat _ _).trans hd)
  have ek : dot_S512x512_S1024x512_S512x1024_1_1_0_0_n_n.rhsIdx (ix2 s t)
      ((contrEquiv1 dot_S512x512_S1024x512_S512x1024_1_1_0_0_n_n 512 rfl rfl).symm d) = ix2 t d :=
    funext fun a => Fin.ext (by
      match a with
      | ⟨0, _⟩ => exact scores_k_pos _ _
      | ⟨1, _⟩ => exact (scores_k_feat _ _).trans hd)
  rw [eq, ek]

/-! ### Weights against values: the ordinary product over the key positions -/

private theorem mix_w_pos (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
private theorem mix_w_key (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
private theorem mix_v_key (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
private theorem mix_v_feat (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- Entry `(s, d)`: the combination of column `d` of the second factor by row `s` of the first. -/
private theorem mix_apply (P : FVec Ideal S512x1024 .bf16) (V : FVec Ideal S1024x512 .bf16) (s : Fin 512) (d : Fin 512) :
    matmul dot_S512x1024_S1024x512_S512x512_1_0_0_1_n_n none P V (constant S512x512 .f32 0x00000000#32) (ix2 s d)
      = ∑ t : Fin 1024, P (ix2 s t) * V (ix2 t d) := by
  refine (Ideal.matmul_constant_zero_apply dot_S512x1024_S1024x512_S512x512_1_0_0_1_n_n none P V (ix2 s d)).trans ?_
  rw [← Equiv.sum_comp (contrEquiv1 dot_S512x1024_S1024x512_S512x512_1_0_0_1_n_n 1024 rfl rfl).symm]
  refine Finset.sum_congr rfl fun t _ => ?_
  have ht := contrEquiv1_symm_val dot_S512x1024_S1024x512_S512x512_1_0_0_1_n_n 1024 rfl rfl t
  have ew : dot_S512x1024_S1024x512_S512x512_1_0_0_1_n_n.lhsIdx (ix2 s d)
      ((contrEquiv1 dot_S512x1024_S1024x512_S512x512_1_0_0_1_n_n 1024 rfl rfl).symm t) = ix2 s t :=
    funext fun a => Fin.ext (by
      match a with
      | ⟨0, _⟩ => exact mix_w_pos _ _
      | ⟨1, _⟩ => exact (mix_w_key _ _).trans ht)
  have ev : dot_S512x1024_S1024x512_S512x512_1_0_0_1_n_n.rhsIdx (ix2 s d)
      ((contrEquiv1 dot_S512x1024_S1024x512_S512x512_1_0_0_1_n_n 1024 rfl rfl).symm t) = ix2 t d :=
    funext fun a => Fin.ext (by
      match a with
      | ⟨0, _⟩ => exact (mix_v_key _ _).trans ht
      | ⟨1, _⟩ => exact mix_v_feat _ _)
  rw [ew, ev]

/-! ### Attended rows against the staged weights: the ordinary product over the features -/

private theorem proj_a_pos (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl
private theorem proj_a_feat (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
private theorem proj_w_feat (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
private theorem proj_w_col (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- Entry `(s, p)`: row `s` of the first factor against column `p` of the second. -/
private theorem proj_apply (A : FVec Ideal S512x512 .bf16) (W : FVec Ideal S512x256 .bf16) (s : Fin 512) (p : Fin 256) :
    matmul dot_S512x512_S512x256_S512x256_1_0_0_1_n_n none A W (constant S512x256 .f32 0x00000000#32) (ix2 s p)
      = ∑ d : Fin 512, A (ix2 s d) * W (ix2 d p) := by
  refine (Ideal.matmul_constant_zero_apply dot_S512x512_S512x256_S512x256_1_0_0_1_n_n none A W (ix2 s p)).trans ?_
  rw [← Equiv.sum_comp (contrEquiv1 dot_S512x512_S512x256_S512x256_1_0_0_1_n_n 512 rfl rfl).symm]
  refine Finset.sum_congr rfl fun d _ => ?_
  have hd := contrEquiv1_symm_val dot_S512x512_S512x256_S512x256_1_0_0_1_n_n 512 rfl rfl d
  have ea : dot_S512x512_S512x256_S512x256_1_0_0_1_n_n.lhsIdx (ix2 s p)
      ((contrEquiv1 dot_S512x512_S512x256_S512x256_1_0_0_1_n_n 512 rfl rfl).symm d) = ix2 s d :=
    funext fun a => Fin.ext (by
      match a with
      | ⟨0, _⟩ => exact proj_a_pos _ _
      | ⟨1, _⟩ => exact (proj_a_feat _ _).trans hd)
  have ew : dot_S512x512_S512x256_S512x256_1_0_0_1_n_n.rhsIdx (ix2 s p)
      ((contrEquiv1 dot_S512x512_S512x256_S512x256_1_0_0_1_n_n 512 rfl rfl).symm d) = ix2 d p :=
    funext fun a => Fin.ext (by
      match a with
      | ⟨0, _⟩ => exact (proj_w_feat _ _).trans hd
      | ⟨1, _⟩ => exact proj_w_col _ _)
  rw [ea, ew]

/-! ## The rows of the specification

The three steps of one query row `s`, each stated over the operands the step before it produced,
with what is known of those operands entry by entry as a hypothesis. -/

/-- The scores of row `s`: the query row is scaled by the literal before the product. -/
private theorem score_row (v12 : Vec Ideal S1x512x512 .f32) (K : FVec Ideal S1024x512 .bf16)
    (hc : S1x512x512.ShapeCasts S512x512) (hlt : FTy.bits .bf16 < FTy.bits .f32) (s : Fin 512) (t : Fin 1024) :
    matmul dot_S512x512_S1024x512_S512x1024_1_1_0_0_n_n none
        (truncf .bf16 (mulf (shapeCast S512x512 v12 hc) (broadcast S512x512 (Scalar.ofBits (F := Ideal) .f32 0x3D3504F3#32))) hlt)
        K (constant S512x1024 .f32 0x00000000#32) (ix2 s t)
      = Cert.AttnSpec.scK (fun d => v12 (ix3 (0 : Fin 1) s d)) (fun t d => K (ix2 t d)) t := by
  refine (scores_apply _ K s t).trans ?_
  show _ = ∑ d : Fin 512, (v12 (ix3 (0 : Fin 1) s d) * Cert.AttnSpec.cS) * K (ix2 t d)
  refine Finset.sum_congr rfl fun d _ => congrArg (· * K (ix2 t d)) ?_
  show shapeCast S512x512 v12 hc (ix2 s d) * Cert.AttnSpec.cS = _
  exact congrArg (· * Cert.AttnSpec.cS) (shapeCast_1ab_ab_apply v12 hc s d)

/-- The softmax numerators of row `s`: the exponential of a score less the row's maximum. -/
private theorem numer_row (Sc : FVec Ideal S512x1024 .f32) (f : Fin 1024 → EReal)
    (hr : S512x1024.Reduces [1] S512) (hφ : FKind.Formats .f32)
    (hacc : (0xFF800000#32 : BitVec 32) = FKind.maximumf.neutral .f32 hφ)
    (hc : S512.ShapeCasts S512x1) (hb : S512x1.Broadcasts S512x1024)
    (s : Fin 512) (hS : ∀ t, Sc (ix2 s t) = f t) (t : Fin 1024) :
    exp (subf Sc (broadcastTo S512x1024 (shapeCast S512x1 (multiReduction .maximumf [1] S512 Sc 0xFF800000#32 hr hφ hacc) hc) hb)) (ix2 s t)
      = Cert.AttnSpec.numer f t := by
  show Ideal.exp (Sc (ix2 s t)
      - broadcastTo S512x1024 (shapeCast S512x1 (multiReduction .maximumf [1] S512 Sc 0xFF800000#32 hr hφ hacc) hc) hb (ix2 s t))
    = Ideal.exp (f t - Cert.AttnSpec.rowMax f)
  refine congrArg Ideal.exp (congrArg₂ (· - ·) (hS t) ?_)
  refine (column_spread_apply _ hc hb s t).trans ?_
  exact (lane_max_apply Sc hr hφ hacc s).trans (congrArg Cert.AttnSpec.rowMax (funext hS))

/-- The attended row `s`: the numerators' combination of the value rows, divided by their sum. -/
private theorem attn_row (E : FVec Ideal S512x1024 .f32) (V : FVec Ideal S1024x512 .bf16) (n : Fin 1024 → EReal)
    (hlt : FTy.bits .bf16 < FTy.bits .f32)
    (hr : S512x1024.Reduces [1] S512) (hφ : FKind.Formats .f32)
    (hacc : (0x00000000#32 : BitVec 32) = FKind.add.neutral .f32 hφ)
    (hc : S512.ShapeCasts S512x1) (hb : S512x1.Broadcasts S512x512)
    (s : Fin 512) (hE : ∀ t, E (ix2 s t) = n t) (d : Fin 512) :
    divf (matmul dot_S512x1024_S1024x512_S512x512_1_0_0_1_n_n none (truncf .bf16 E hlt) V (constant S512x512 .f32 0x00000000#32))
        (broadcastTo S512x512 (shapeCast S512x1 (multiReduction .add [1] S512 E 0x00000000#32 hr hφ hacc) hc) hb) (ix2 s d)
      = Ideal.div (∑ t : Fin 1024, n t * V (ix2 t d)) (∑ t : Fin 1024, n t) := by
  refine (divf_apply _ _ _).trans (congrArg₂ Ideal.div ?_ ?_)
  · refine (mix_apply _ V s d).trans (Finset.sum_congr rfl fun t _ => congrArg (· * V (ix2 t d)) ?_)
    exact (truncf_apply E hlt (ix2 s t)).trans (hE t)
  · refine (column_spread_apply _ hc hb s d).trans ?_
    exact (lane_sum_apply E hr hφ hacc s).trans (Finset.sum_congr rfl fun t _ => hE t)

/-! ## The three stored values -/

/-- What goes into the scratch: the loaded block, entry for entry. -/
theorem pay1_apply (v9 : Vec Ideal S1x1024x512 .f32) (t : Fin 1024) (d : Fin 512) :
    k0_pay1 (F := Ideal) v9 (ix2 t d) = v9 (ix3 (0 : Fin 1) t d) := by
  unfold k0_pay1
  rw [shapeCast_self]
  exact shapeCast_1ab_ab_apply v9 _ t d

/-- What goes into the output tile at a query point: row `s`, column `p`. -/
theorem pay2_apply (v12 : Vec Ideal S1x512x512 .f32) (v17 : Vec Ideal S1024x512 .bf16) (v32 : Vec Ideal S512x256 .bf16)
    (v35 : Vec Ideal S1x256 .f32) (s : Fin 512) (p : Fin 256) :
    k0_pay2 (F := Ideal) v12 v17 v32 v35 (ix3 (0 : Fin 1) s p)
      = Cert.AttnSpec.rowOutK (fun d => v12 (ix3 (0 : Fin 1) s d)) (fun t d => v17 (ix2 t d))
          (fun d p => v32 (ix2 d p)) (fun p => v35 (ix2 (0 : Fin 1) p)) p := by
  unfold k0_pay2
  -- the unit axis of the tile, then the bias added to the projected row
  refine (shapeCast_ab_1ab_apply _ _ (0 : Fin 1) s p).trans ?_
  refine (addf_apply _ _ _).trans ?_
  unfold Cert.AttnSpec.rowOutK
  refine congrArg₂ (· + ·) ?_ ?_
  · -- the projection of the attended row
    refine (proj_apply _ _ s p).trans (Finset.sum_congr rfl fun d _ => congrArg₂ (· * ·) ?_ ?_)
    · -- a change of float format is the identity; the attended row, over the numerators, over the scores
      show divf (F := Ideal) (φ := .f32) _ _ (ix2 s d) = _
      exact attn_row _ v17 (Cert.AttnSpec.numer (Cert.AttnSpec.scK (fun d => v12 (ix3 (0 : Fin 1) s d)) fun t d => v17 (ix2 t d)))
        _ _ _ _ _ _ s
        (fun t => numer_row _ _ _ _ _ _ _ s (fun t' => score_row v12 v17 _ _ s t') t) d
    · exact congrFun (shapeCast_self v32 _) (ix2 d p)
  · -- the bias row spread over the tile's rows
    exact (broadcastTo_1b_ab_apply _ _ s p).trans (congrFun (shapeCast_self v35 _) (ix2 (0 : Fin 1) p))

/-- What goes into the output tile at a padding point: the zero word. -/
theorem pay3_apply (i : S1x512x256.Idx) : k0_pay3 (F := Ideal) i = Cert.AttnSpec.zeroW := by
  obtain ⟨u, s, p, rfl⟩ : ∃ (u : Fin 1) (s : Fin 512) (p : Fin 256), i = ix3 u s p := ⟨i 0, i 1, i 2, eq_ix3 i⟩
  unfold k0_pay3
  exact shapeCast_ab_1ab_apply _ _ u s p

end Cert.KernelIdeal.Payload

end
-- ==== Proof.KI.Tile.lean ====
/-
  What the body leaves after each grid point, entry by entry, over the launch memory.

  After every point of batch `b` the scratch holds the batch's slab: the first tile of the batch
  writes it there (the narrowing is the identity on extended reals) and the later tiles leave it.
  After a query tile `k` (k < 2) of batch `b` the output tile's row `s` is the specification's
  row for the query row `512·k + s` of the batch, with the batch's slab as keys and values, the
  transposed weights and the bias; after a padding tile it is the zero word.  Both are the
  specification's array at (b, 512·k + s, p).
-/
import proofs.«408346_j59777354826463_3_alg».proof.Proof.KI.Body
import proofs.«408346_j59777354826463_3_alg».proof.Proof.KI.Pieces
import proofs.«408346_j59777354826463_3_alg».proof.Proof.KI.Blocks
import proofs.«408346_j59777354826463_3_alg».proof.Proof.Payload
import proofs.«408346_j59777354826463_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Blocks (batchOf)

variable (m : (ℓ : Loc nD τ sig) → Buf (Elt Ideal) ℓ) (ρ : Dev nD → PrngReg)

/-- The three argument arrays as launched, on core `c`. -/
abbrev a0 (c : Dev nD) : S16x1024x512.Idx → EReal := m ((c : Thread nD τ).loc main_arg0)
abbrev a1 (c : Dev nD) : S256x512.Idx → EReal := m ((c : Thread nD τ).loc main_arg1)
abbrev a2 (c : Dev nD) : S256.Idx → EReal := m ((c : Thread nD τ).loc main_arg2)

/-! ## The grid, and the specification's array at a row -/

/-- The second grid coordinate of a point is its tile number within the batch. -/
private theorem tile_coord : ∀ t : Fin cfg0.N, ((grid0.coords t) 1).val = t.val % 4 :=
  (by decide +kernel : ∀ t : Fin grid0.N, ((grid0.coords t) 1).val = t.val % 4)

/-- A point that is not a batch's first tile lies in the batch of the point before it. -/
private theorem batch_prev (t : Fin cfg0.N) (h0 : ¬t.val % 4 = 0) (hlt : t.val - 1 < cfg0.N) :
    batchOf ⟨t.val - 1, hlt⟩ = batchOf t :=
  Fin.ext (by show (t.val - 1) / 4 = t.val / 4; omega)

/-- The specification's array at a row that carries a query row. -/
private theorem arrK_query (x0 : S16x1024x512.Idx → EReal) (x1 : S256x512.Idx → EReal) (x2 : S256.Idx → EReal)
    (b : Fin 16) (row : Fin 2048) (p : Fin 256) (h : row.val < 1024) :
    Cert.AttnSpec.arrK x0 x1 x2 (ix3 b row p)
      = Cert.AttnSpec.rowOutK (fun d => x0 (ix3 b (⟨row.val, h⟩ : Fin 1024) d)) (fun t d => x0 (ix3 b t d))
          (fun d p => x1 (ix2 p d)) (fun p => x2 (ix1 p)) p := by
  unfold Cert.AttnSpec.arrK
  exact dif_pos h

/-- The specification's array at a row past the sequence length. -/
private theorem arrK_past (x0 : S16x1024x512.Idx → EReal) (x1 : S256x512.Idx → EReal) (x2 : S256.Idx → EReal)
    (b : Fin 16) (row : Fin 2048) (p : Fin 256) (h : ¬row.val < 1024) :
    Cert.AttnSpec.arrK x0 x1 x2 (ix3 b row p) = Cert.AttnSpec.zeroW := by
  unfold Cert.AttnSpec.arrK
  exact dif_neg h

/-- An output row depends only on the four functions it is built from. -/
private theorem rowOutK_congr {q q' : Fin 512 → EReal} {KV KV' : Fin 1024 → Fin 512 → EReal}
    {W W' : Fin 512 → Fin 256 → EReal} {B B' : Fin 256 → EReal}
    (hq : q = q') (hK : KV = KV') (hW : W = W') (hB : B = B') (p : Fin 256) :
    Cert.AttnSpec.rowOutK q KV W B p = Cert.AttnSpec.rowOutK q' KV' W' B' p := by
  subst hq hK hW hB; rfl

/-! ## The scratch -/

/-- At a batch's first tile the scratch receives the batch's slab. -/
private theorem sc_first (c : Dev nD) (t : Fin cfg0.N) (h0 : t.val % 4 = 0) (r : Fin 1024) (d : Fin 512) :
    ((stAt m c t.val t.isLt).2 : S1024x512.Idx → EReal) (ix2 r d) = a0 m c (ix3 (batchOf t) r d) := by
  rw [stAt_fill m c t h0]
  dsimp only
  refine (congrFun (readSc_fill (F := Ideal) c (grid0.coords t) (mq t) (hmq t) (mw t) (hmw t) (mb t) (hmb t) (mo t) (hmo t) msc (Memref.isWhole_whole _)
    ((hFill t).mpr h0) ((hQ t).mpr (by omega)) (fun h => by have := (hPad t).mp h; omega)
    (iblk m c 0 t) (iblk m c 1 t) (iblk m c 2 t)) (ix2 r d)).trans ?_
  refine (Payload.pay1_apply (iblk m c 0 t) r d).trans ?_
  exact Blocks.iblk0_apply m c t r d

/-- At every other tile the scratch is what the point before left. -/
private theorem sc_later (c : Dev nD) (t : Fin cfg0.N) (h0 : ¬t.val % 4 = 0) :
    (stAt m c t.val t.isLt).2 = (stAt m c (t.val - 1) (Nat.lt_of_le_of_lt (Nat.sub_le _ _) t.isLt)).2 := by
  by_cases h1 : t.val % 4 < 2
  · rw [stAt_q m c t h0 h1]
  · rw [stAt_pad m c t h0 h1]

/-- The scratch after point `t`, at row `r` and column `d`: the batch's slab entry. -/
theorem sc_apply (c : Dev nD) (t : Fin cfg0.N) (r : Fin 1024) (d : Fin 512) :
    ((stAt m c t.val t.isLt).2 : S1024x512.Idx → EReal) (ix2 r d) = a0 m c (ix3 (batchOf t) r d) := by
  obtain ⟨n, hn⟩ := t
  induction n using Nat.strong_induction_on with
  | _ n ih =>
    by_cases h0 : n % 4 = 0
    · exact sc_first m c ⟨n, hn⟩ h0 r d
    · have hlt : n - 1 < cfg0.N := Nat.lt_of_le_of_lt (Nat.sub_le _ _) hn
      rw [sc_later m c ⟨n, hn⟩ h0]
      refine (ih (n - 1) (by omega) hlt).trans ?_
      exact congrArg (fun b => a0 m c (ix3 b r d)) (batch_prev ⟨n, hn⟩ h0 hlt)

/-! ## The output tile -/

/-- A query tile: the stored value over the tile's query rows and a scratch that holds the batch's
    slab is the specification's array at the tile's rows. -/
private theorem query_tile (c : Dev nD) (t : Fin cfg0.N) (h1 : t.val % 4 < 2) (hq : condQ (grid0.coords t))
    (xs : Vec Ideal S1024x512 .bf16)
    (hxs : ∀ (r : Fin 1024) (d : Fin 512), (xs : S1024x512.Idx → EReal) (ix2 r d) = a0 m c (ix3 (batchOf t) r d))
    (s : Fin 512) (p : Fin 256) (hr : (t.val % 4) * 512 + s.val < 2048) :
    (k0_pay2 (F := Ideal) (qslice (F := Ideal) (grid0.coords t) hq (iblk m c 0 t)) xs (iblk m c 1 t) (iblk m c 2 t)
        : S1x512x256.Idx → EReal) (ix3 (0 : Fin 1) s p)
      = Cert.AttnSpec.arrK (a0 m c) (a1 m c) (a2 m c) (ix3 (batchOf t) (⟨(t.val % 4) * 512 + s.val, hr⟩ : Fin 2048) p) := by
  have hrow : (t.val % 4) * 512 + s.val < 1024 := by have := s.isLt; omega
  have hi1 : ((grid0.coords t) 1).val = t.val % 4 := tile_coord t
  have hrow' : ((grid0.coords t) 1).val * 512 + s.val < 1024 := by rw [hi1]; exact hrow
  refine (Payload.pay2_apply (qslice (F := Ideal) (grid0.coords t) hq (iblk m c 0 t)) xs (iblk m c 1 t) (iblk m c 2 t) s p).trans ?_
  refine Eq.trans ?_ (arrK_query (a0 m c) (a1 m c) (a2 m c) (batchOf t) ⟨(t.val % 4) * 512 + s.val, hr⟩ p hrow).symm
  refine rowOutK_congr ?_ ?_ ?_ ?_ p
  · -- the query row: row `s` of the tile is row `512 · (t % 4) + s` of the slab
    funext d
    refine (qslice_apply (grid0.coords t) hq (iblk m c 0 t) s d hrow').trans ?_
    refine (Blocks.iblk0_apply m c t ⟨((grid0.coords t) 1).val * 512 + s.val, hrow'⟩ d).trans ?_
    exact congrArg (fun r => a0 m c (ix3 (batchOf t) r d))
      (Fin.ext (by show ((grid0.coords t) 1).val * 512 + s.val = (t.val % 4) * 512 + s.val; rw [hi1]))
  · -- keys and values: the scratch
    funext r d
    exact hxs r d
  · -- the staged weights are the matrix transposed
    funext d p'
    exact Blocks.iblk1_apply m c t d p'
  · -- the staged bias is the bias as a row
    funext p'
    exact Blocks.iblk2_apply m c t p'

/-- The output tile after point `t`, at row `s` and column `p`: the specification's array at the
    batch of `t`, row `512 · (t % 4) + s`, column `p`. -/
theorem out_apply (c : Dev nD) (t : Fin cfg0.N) (s : Fin 512) (p : Fin 256) (hr : (t.val % 4) * 512 + s.val < 2048) :
    ((stAt m c t.val t.isLt).1 : S1x512x256.Idx → EReal) (ix3 (0 : Fin 1) s p)
      = Cert.AttnSpec.arrK (a0 m c) (a1 m c) (a2 m c) (ix3 (batchOf t) (⟨(t.val % 4) * 512 + s.val, hr⟩ : Fin 2048) p) := by
  by_cases h0 : t.val % 4 = 0
  · -- a batch's first tile: computed over the scratch it has just filled
    rw [stAt_fill m c t h0]
    dsimp only
    refine (congrFun (readOut_fill (F := Ideal) c (grid0.coords t) (mq t) (hmq t) (mw t) (hmw t) (mb t) (hmb t) (mo t) (hmo t) msc (Memref.isWhole_whole _)
      ((hFill t).mpr h0) ((hQ t).mpr (by omega)) (fun h => by have := (hPad t).mp h; omega)
      (iblk m c 0 t) (iblk m c 1 t) (iblk m c 2 t)) (ix3 (0 : Fin 1) s p)).trans ?_
    exact query_tile m c t (by omega) ((hQ t).mpr (by omega)) (k0_pay1 (F := Ideal) (iblk m c 0 t))
      (fun r d => (Payload.pay1_apply (iblk m c 0 t) r d).trans (Blocks.iblk0_apply m c t r d)) s p hr
  · by_cases h1 : t.val % 4 < 2
    · -- the second tile: computed over the scratch the first tile left
      have hlt : t.val - 1 < cfg0.N := Nat.lt_of_le_of_lt (Nat.sub_le _ _) t.isLt
      rw [stAt_q m c t h0 h1]
      dsimp only
      refine (congrFun (readOut_q (F := Ideal) c (grid0.coords t) (mq t) (hmq t) (mw t) (hmw t) (mb t) (hmb t) (mo t) (hmo t) msc (Memref.isWhole_whole _)
        (fun h => h0 ((hFill t).mp h)) ((hQ t).mpr h1) (fun h => by have := (hPad t).mp h; omega)
        (iblk m c 0 t) (iblk m c 1 t) (iblk m c 2 t) (stAt m c (t.val - 1) hlt).2) (ix3 (0 : Fin 1) s p)).trans ?_
      exact query_tile m c t h1 ((hQ t).mpr h1) (stAt m c (t.val - 1) hlt).2
        (fun r d => (sc_apply m c ⟨t.val - 1, hlt⟩ r d).trans
          (congrArg (fun b => a0 m c (ix3 b r d)) (batch_prev t h0 hlt))) s p hr
    · -- a padding tile: the zero word, and the row is past the sequence length
      rw [stAt_pad m c t h0 h1]
      dsimp only
      refine (congrFun (readOut_pad (F := Ideal) c (grid0.coords t) (mq t) (hmq t) (mw t) (hmw t) (mb t) (hmb t) (mo t) (hmo t) msc (Memref.isWhole_whole _)
        (fun h => by have := (hFill t).mp h; omega) (fun h => h1 ((hQ t).mp h)) ((hPad t).mpr (by omega))) (ix3 (0 : Fin 1) s p)).trans ?_
      refine (Payload.pay3_apply (ix3 (0 : Fin 1) s p)).trans ?_
      exact (arrK_past (a0 m c) (a1 m c) (a2 m c) (batchOf t) ⟨(t.val % 4) * 512 + s.val, hr⟩ p
        (by show ¬(t.val % 4) * 512 + s.val < 1024; omega)).symm

end Cert.KernelIdeal.Hand

end
-- ==== Proof.KI.Final.lean ====
/-
  From the tiles to the array.  Every grid point writes its output tile back: point `t` writes
  rows `512 · (t % 4) … 512 · (t % 4) + 511` of batch `t / 4`.  The 64 tiles cover the output array,
  the tile holding row `r` of batch `b` being point `4 · b + r / 512`.  So if every tile holds, entry
  by entry, the values of one function of the whole array's index, the array ends holding that
  function.
-/
import proofs.«408346_j59777354826463_3_alg».proof.Proof.KI.Body
import proofs.«408346_j59777354826463_3_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Blocks (batchOf)

variable (m : (ℓ : Loc nD τ sig) → Buf (Elt Ideal) ℓ) (ρ : Dev nD → PrngReg)

/-- The output window's block index at every grid point: the batch, the tile number, 0. -/
theorem idx3 : ∀ t : Fin cfg0.N, win0_3.index t (0 : Fin 3) = t.val / 4
    ∧ win0_3.index t (1 : Fin 3) = t.val % 4 ∧ win0_3.index t (2 : Fin 3) = 0 :=
  (by decide +kernel : ∀ t : Fin grid0.N, _)

/-- What point `t` writes back is the block of `G` at `t`: entry (0, s, p) of the tile sits at the
    array's index (t / 4, 512 · (t % 4) + s, p). -/
theorem flushed3_eq (c : Dev nD) (G : S16x2048x256.Idx → EReal)
    (htile : ∀ (t : Fin cfg0.N) (s : Fin 512) (p : Fin 256) (hr : (t.val % 4) * 512 + s.val < 2048),
      ((stAt m c t.val t.isLt).1 : S1x512x256.Idx → EReal) (ix3 (0 : Fin 1) s p)
        = G (ix3 (batchOf t) (⟨(t.val % 4) * 512 + s.val, hr⟩ : Fin 2048) p))
    (t : Fin cfg0.N) (hf : (cfg0.win 3).flush t = true) :
    (dats m 0 c).flushed 3 t = ((cfg0.win 3).blk t).view.read (Elt Ideal) G := by
  show (cfg0.win 3).cut (grid0.coords t) ((dats m 0 c).after 3 t) = _
  rw [after3]
  have key : ∀ y : S1x512x256.Idx, ((stAt m c t.val t.isLt).1 : S1x512x256.Idx → EReal) y
      = G (((cfg0.win 3).blk t).view.emb y) := by
    intro y
    obtain ⟨u, s, p, rfl⟩ : ∃ (u : Fin 1) (s : Fin 512) (p : Fin 256), y = ix3 u s p :=
      ⟨y 0, y 1, y 2, eq_ix3 y⟩
    obtain rfl : u = 0 := Subsingleton.elim _ _
    obtain ⟨e0, e1, e2⟩ := idx3 t
    have hs : s.val < 512 := s.isLt
    have hr : (t.val % 4) * 512 + s.val < 2048 := by omega
    refine (htile t s p hr).trans (congrArg G ?_)
    funext a
    apply Fin.ext
    match a with
    | ⟨0, _⟩ =>
      show t.val / 4 = win0_3.index t (0 : Fin 3) * 1 + 1 * 0
      omega
    | ⟨1, _⟩ =>
      show t.val % 4 * 512 + s.val = win0_3.index t (1 : Fin 3) * 512 + 1 * s.val
      omega
    | ⟨2, _⟩ =>
      show p.val = win0_3.index t (2 : Fin 3) * 256 + 1 * p.val
      omega
  funext y
  exact key y

/-- The tiles cover the array: the index (b, r, p) lies in the block of point `4 · b + r / 512`. -/
theorem cover3 (i : S16x2048x256.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 256 := (i 2).isLt
  obtain ⟨t, tv⟩ : ∃ t : Fin cfg0.N, t.val = 4 * (i 0).val + (i 1).val / 512 :=
    ⟨⟨4 * (i 0).val + (i 1).val / 512, by rw [show cfg0.N = 64 from N_0]; omega⟩, rfl⟩
  refine ⟨t, flush0_3 t, ?_⟩
  obtain ⟨e0, e1, e2⟩ := idx3 t
  show i ∈ ((View.whole main_v3).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 256 ≤ (i 2).val ∧ (i 2).val < win0_3.index t (2 : Fin 3) * 256 + 256
    omega

/-- The output array after the run is any function `G` whose values every point's tile holds. -/
theorem final3 (c : Dev nD) (G : S16x2048x256.Idx → EReal)
    (htile : ∀ (t : Fin cfg0.N) (s : Fin 512) (p : Fin 256) (hr : (t.val % 4) * 512 + s.val < 2048),
      ((stAt m c t.val t.isLt).1 : S1x512x256.Idx → EReal) (ix3 (0 : Fin 1) s p)
        = G (ix3 (batchOf t) (⟨(t.val % 4) * 512 + s.val, hr⟩ : Fin 2048) p)) :
    ((dats m 0 c).arrAt 3 cfg0.N : S16x2048x256.Idx → EReal) = G :=
  (dats m 0 c).arrAt_eq_of_cover 3 G (flushed3_eq m c G htile) cover3

end Cert.KernelIdeal.Hand

end
-- ==== Proof.KI.Value.lean ====
/-
  The idealized kernel's run, read as values: every execution ends with the result array
  holding the specification's array (kernel arrangement) of the three argument arrays as
  launched, and the argument arrays unchanged.  The result array is the output window's array
  after the last grid point, which the tiles determine; the first argument is a staged input,
  which the pipeline only reads; the other two are not staged at all, and the host operations
  before the region write neither.
-/
import proofs.«408346_j59777354826463_3_alg».proof.Proof.KI.Tile
import proofs.«408346_j59777354826463_3_alg».proof.Proof.KI.Final

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Blocks (batchOf)

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v3) = Cert.AttnSpec.arrK (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final3 m c _ (out_apply m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.RefValue.lean ====
/-
  The reference program's result, index by index, is the specification's array in the
  reference's arrangement: batched inner products scaled, the row maximum (folded from -∞, and
  the further maximum with -∞ changes nothing), the numerators and their sum, the normalised
  weights combined with the value rows, the linear layer and the bias, and the result written
  into rows 0..1023 of an array of zero words with 2048 rows per batch.
-/
import proofs.«408346_j59777354826463_3_alg».proof.Proof.Gen.ReferenceIdeal.Read
import proofs.«408346_j59777354826463_3_alg».proof.Proof.Spec

noncomputable section

namespace Cert.ReferenceIdeal.RefValue

open Idealize.ShloMosaic Idealize.ShloMosaic.ValueIdx Cert.ReferenceIdeal Cert.ReferenceIdeal.Gen

open Cert.AttnSpec

/-! ## The index functions of the generated stages, at constructed indices -/

private theorem lidx0_eq (b : Fin 16) (s t : Fin 1024) (k : Fin 512) :
    Read.lidx_main_v0 (ix3 b s t) k = ix3 b s k :=
  funext fun a => Fin.ext (by match a with | ⟨0, _⟩ => rfl | ⟨1, _⟩ => rfl | ⟨2, _⟩ => rfl)

private theorem ridx0_eq (b : Fin 16) (s t : Fin 1024) (k : Fin 512) :
    Read.ridx_main_v0 (ix3 b s t) k = ix3 b t k :=
  funext fun a => Fin.ext (by match a with | ⟨0, _⟩ => rfl | ⟨1, _⟩ => rfl | ⟨2, _⟩ => rfl)

private theorem idx67_eq (b : Fin 16) (s t : Fin 1024) :
    Read.idx_main_v6 (Read.idx_main_v7 (ix3 b s t)) = ix2 b s :=
  funext fun a => Fin.ext (by match a with | ⟨0, _⟩ => rfl | ⟨1, _⟩ => rfl)

private theorem idx10_eq (b : Fin 16) (s : Fin 1024) (k : Fin 1024) :
    Read.idx_main_v10 (ix2 b s) k = ix3 b s k :=
  funext fun a => Fin.ext (by match a with | ⟨0, _⟩ => rfl | ⟨1, _⟩ => rfl | ⟨2, _⟩ => rfl)

private theorem idx1112_eq (b : Fin 16) (s t : Fin 1024) :
    Read.idx_main_v11 (Read.idx_main_v12 (ix3 b s t)) = ix2 b s :=
  funext fun a => Fin.ext (by match a with | ⟨0, _⟩ => rfl | ⟨1, _⟩ => rfl)

private theorem lidx14_eq (b : Fin 16) (s : Fin 1024) (d : Fin 512) (k : Fin 1024) :
    Read.lidx_main_v14 (ix3 b s d) k = ix3 b s k :=
  funext fun a => Fin.ext (by match a with | ⟨0, _⟩ => rfl | ⟨1, _⟩ => rfl | ⟨2, _⟩ => rfl)

private theorem ridx14_eq (b : Fin 16) (s : Fin 1024) (d : Fin 512) (k : Fin 1024) :
    Read.ridx_main_v14 (ix3 b s d) k = ix3 b k d :=
  funext fun a => Fin.ext (by match a with | ⟨0, _⟩ => rfl | ⟨1, _⟩ => rfl | ⟨2, _⟩ => rfl)

private theorem lidx15_eq (b : Fin 16) (s : Fin 1024) (p : Fin 256) (k : Fin 512) :
    Read.lidx_main_v15 (ix3 b s p) k = ix3 b s k :=
  funext fun a => Fin.ext (by match a with | ⟨0, _⟩ => rfl | ⟨1, _⟩ => rfl | ⟨2, _⟩ => rfl)

private theorem ridx15_eq (b : Fin 16) (s : Fin 1024) (p : Fin 256) (k : Fin 512) :
    Read.ridx_main_v15 (ix3 b s p) k = ix2 p k :=
  funext fun a => Fin.ext (by match a with | ⟨0, _⟩ => rfl | ⟨1, _⟩ => rfl)

private theorem idx1617_eq (b : Fin 16) (s : Fin 1024) (p : Fin 256) :
    Read.idx_main_v16 (Read.idx_main_v17 (ix3 b s p)) = ix1 p :=
  funext fun a => Fin.ext (by match a with | ⟨0, _⟩ => rfl)

/-! ## The stages up to the linear layer, read at an index -/

/-- The scaled scores: the inner product of query row `s` with key row `t`, times the scale. -/
private theorem scores_eq (x0 : (⟨S16x1024x512, .f32⟩ : BufTy).Contents (Elt Ideal)) (b : Fin 16) (s t : Fin 1024) :
    Read.val_main_v2 (F := Ideal) x0 (ix3 b s t)
      = scR (fun d => x0 (ix3 b s d)) (fun t d => x0 (ix3 b t d)) t := by
  rw [Read.val_main_v2_apply, Read.val_main_v0_apply, Read.val_main_v1_apply, Read.val_main_cst_apply]
  simp only [Ideal.mulf_def, Ideal.ofBits_def, lidx0_eq, ridx0_eq]
  rfl

/-- The word the row maximum starts from is the least extended real. -/
private theorem negInf_eq_bot : negInf = ⊥ := by
  simp [Ideal.ofBits, Ideal.ieee]

/-- The shape fact that names the coordinates of the reduced axis. -/
private theorem red2 : S16x1024x1024.Reduces [2] S16x1024 := by decide

private theorem lift2_eq (b : Fin 16) (s : Fin 1024) (k : Fin 1024) :
    red2.lift (ix2 b s) k = ix3 b s k :=
  funext fun a => Fin.ext (by match a with | ⟨0, _⟩ => rfl | ⟨1, _⟩ => rfl | ⟨2, _⟩ => rfl)

/-- The row maximum: the fold of `max` from `-∞` over the row's scores; the further maximum with
    `-∞` that the program takes changes nothing, `-∞` being the least element. -/
private theorem rowmax_eq (x0 : (⟨S16x1024x512, .f32⟩ : BufTy).Contents (Elt Ideal)) (b : Fin 16) (s : Fin 1024) :
    Read.val_main_v5 (F := Ideal) x0 (ix2 b s)
      = rowMax (scR (fun d => x0 (ix3 b s d)) (fun t d => x0 (ix3 b t d))) := by
  rw [Read.val_main_v5_apply, Read.val_main_v4_apply, Read.val_main_cst_1_apply]
  unfold Read.val_main_v3
  have hsc := fun t => scores_eq x0 b s t
  generalize Read.val_main_v2 (F := Ideal) x0 = y at hsc ⊢
  rw [Host.reduce_eq_fold_single (α := Ideal .f32) (FloatOps.maximumf (F := Ideal) (φ := .f32)) y _ _ red2 _ (ix2 b s),
    Read.val_main_cst_0_apply]
  have hf : (y ∘ red2.lift (ix2 b s)) = scR (fun d => x0 (ix3 b s d)) (fun t d => x0 (ix3 b t d)) :=
    funext fun k => (congrArg y (lift2_eq b s k)).trans (hsc k)
  rw [hf]
  show max negInf (rowMax _) = rowMax _
  exact max_eq_right (by rw [negInf_eq_bot]; exact bot_le)

/-- A softmax numerator. -/
private theorem numer_eq (x0 : (⟨S16x1024x512, .f32⟩ : BufTy).Contents (Elt Ideal)) (b : Fin 16) (s t : Fin 1024) :
    Read.val_main_v9 (F := Ideal) x0 (ix3 b s t)
      = numer (scR (fun d => x0 (ix3 b s d)) (fun t d => x0 (ix3 b t d))) t := by
  rw [Read.val_main_v9_apply, Read.val_main_v8_apply, Read.val_main_v7_apply, Read.val_main_v6_apply,
    idx67_eq, rowmax_eq, scores_eq]
  rfl

/-- The softmax denominator: the host's sum starts from the zero word, which is `0`. -/
private theorem denom_eq (x0 : (⟨S16x1024x512, .f32⟩ : BufTy).Contents (Elt Ideal)) (b : Fin 16) (s : Fin 1024) :
    Read.val_main_v10 (F := Ideal) x0 (ix2 b s)
      = denom (scR (fun d => x0 (ix3 b s d)) (fun t d => x0 (ix3 b t d))) := by
  rw [Read.val_main_v10_apply, Read.val_main_cst_2_apply]
  simp only [Ideal.ofBits_def, Ideal.ofBits_zero_f32, zero_add, idx10_eq, numer_eq]
  rfl

/-- A normalised weight. -/
private theorem weight_eq (x0 : (⟨S16x1024x512, .f32⟩ : BufTy).Contents (Elt Ideal)) (b : Fin 16) (s t : Fin 1024) :
    Read.val_main_v13 (F := Ideal) x0 (ix3 b s t)
      = Ideal.div (numer (scR (fun d => x0 (ix3 b s d)) (fun t d => x0 (ix3 b t d))) t)
          (denom (scR (fun d => x0 (ix3 b s d)) (fun t d => x0 (ix3 b t d)))) := by
  rw [Read.val_main_v13_apply, Read.val_main_v12_apply, Read.val_main_v11_apply, idx1112_eq, denom_eq, numer_eq]
  rfl

/-- The attended row: the weights' combination of the value rows. -/
private theorem attn_eq (x0 : (⟨S16x1024x512, .f32⟩ : BufTy).Contents (Elt Ideal)) (b : Fin 16) (s : Fin 1024) (d : Fin 512) :
    Read.val_main_v14 (F := Ideal) x0 (ix3 b s d)
      = attnR (fun d => x0 (ix3 b s d)) (fun t d => x0 (ix3 b t d)) d := by
  rw [Read.val_main_v14_apply]
  simp only [lidx14_eq, ridx14_eq, weight_eq]
  rfl

/-- The linear layer and the bias. -/
private theorem out_eq (x0 : (⟨S16x1024x512, .f32⟩ : BufTy).Contents (Elt Ideal)) (x1 : (⟨S256x512, .f32⟩ : BufTy).Contents (Elt Ideal))
    (x2 : (⟨S256, .f32⟩ : BufTy).Contents (Elt Ideal)) (b : Fin 16) (s : Fin 1024) (p : Fin 256) :
    Read.val_main_v18 (F := Ideal) x0 x1 x2 (ix3 b s p)
      = rowOutR (fun d => x0 (ix3 b s d)) (fun t d => x0 (ix3 b t d)) (fun p d => x1 (ix2 p d))
          (fun p => x2 (ix1 p)) p := by
  rw [Read.val_main_v18_apply, Read.val_main_v15_apply, Read.val_main_v17_apply, Read.val_main_v16_apply, idx1617_eq]
  simp only [Ideal.addf_def, lidx15_eq, ridx15_eq, attn_eq]
  rfl

/-! ## The final scatter -/

/-- A left fold whose steps all leave the element at `i` alone ends with the element it started with. -/
private theorem foldl_untouched {β ι α : Type} (i : β) (G : (β → α) → ι → (β → α))
    (hG : ∀ r n, G r n i = r i) : ∀ (L : List ι) (r : β → α), (L.foldl G r) i = r i := by
  intro L
  induction L with
  | nil => intro r; rfl
  | cons a L ih => intro r; rw [List.foldl_cons, ih, hG]

/-- A left fold whose every step either writes `v` at `i` (a hit) or leaves the element at `i` alone ends with `v`
    at `i`, if it started with `v` there or the list has a hit. -/
private theorem foldl_overwritten {β ι α : Type} (i : β) (v : α) (G : (β → α) → ι → (β → α)) (hit : ι → Prop)
    (h1 : ∀ r n, hit n → G r n i = v) (h0 : ∀ r n, ¬ hit n → G r n i = r i) :
    ∀ (L : List ι) (r : β → α), (r i = v ∨ ∃ n ∈ L, hit n) → (L.foldl G r) i = v := by
  intro L
  induction L with
  | nil =>
    intro r h
    rcases h with h | ⟨n, hn, _⟩
    · exact h
    · exact absurd hn List.not_mem_nil
  | cons a L ih =>
    intro r h
    rw [List.foldl_cons]
    refine ih _ ?_
    by_cases ha : hit a
    · exact Or.inl (h1 r a ha)
    · rcases h with h | ⟨n, hn, hh⟩
      · exact Or.inl ((h0 r a ha).trans h)
      · rcases List.mem_cons.1 hn with e | hn'
        · exact absurd (e ▸ hh) ha
        · exact Or.inr ⟨n, hn', hh⟩

private theorem row_lt (r : Fin 1024) : r.val < 2048 := by omega

/-- Where an update index of the final scatter lands: the start index is the literal `0` on the row axis (and `0` on
    the axes the map does not name), and every axis is a window axis, so the update index lands at the operand index
    with the same three coordinates; it is inside the operand, whose row axis is the longer. -/
private theorem land_eq (j : S16x1024x256.Idx) :
    scatter_S16x2048x256_S1_S16x1024x256_012_n_1_0.resultIdx? j (Read.val_main_v20 (F := Ideal))
      = some (ix3 (j 0) ⟨(j 1).val, row_lt (j 1)⟩ (j 2)) := by
  have hs : ∀ a, scatter_S16x2048x256_S1_S16x1024x256_012_n_1_0.start j (Read.val_main_v20 (F := Ideal)) a = 0 := by
    intro a
    unfold ScatterDims.start
    split
    · rw [Read.val_main_v20_apply, Read.val_main_c_apply]; rfl
    · rfl
  have hw : ∀ a : Fin 3, scatter_S16x2048x256_S1_S16x1024x256_012_n_1_0.window j a = (j a).val := by
    intro a
    match a with
    | ⟨0, _⟩ => rfl
    | ⟨1, _⟩ => rfl
    | ⟨2, _⟩ => rfl
  have hb : ∀ a, 0 ≤ scatter_S16x2048x256_S1_S16x1024x256_012_n_1_0.start j (Read.val_main_v20 (F := Ideal)) a
        + scatter_S16x2048x256_S1_S16x1024x256_012_n_1_0.window j a
      ∧ scatter_S16x2048x256_S1_S16x1024x256_012_n_1_0.start j (Read.val_main_v20 (F := Ideal)) a
        + scatter_S16x2048x256_S1_S16x1024x256_012_n_1_0.window j a < S16x2048x256.size a := by
    intro a
    rw [hs a, hw a]
    match a with
    | ⟨0, _⟩ =>
      have h : (j 0).val < 16 := (j 0).isLt
      exact ⟨by omega, by show (0 : Int) + ((j 0).val : Int) < ((16 : Nat) : Int); omega⟩
    | ⟨1, _⟩ =>
      have h : (j 1).val < 1024 := (j 1).isLt
      exact ⟨by omega, by show (0 : Int) + ((j 1).val : Int) < ((2048 : Nat) : Int); omega⟩
    | ⟨2, _⟩ =>
      have h : (j 2).val < 256 := (j 2).isLt
      exact ⟨by omega, by show (0 : Int) + ((j 2).val : Int) < ((256 : Nat) : Int); omega⟩
  unfold ScatterDims.resultIdx?
  rw [dif_pos hb]
  congr 1
  funext a
  apply Fin.ext
  show (scatter_S16x2048x256_S1_S16x1024x256_012_n_1_0.start j (Read.val_main_v20 (F := Ideal)) a
        + (scatter_S16x2048x256_S1_S16x1024x256_012_n_1_0.window j a : Int)).toNat = _
  rw [hs a, hw a, Int.zero_add, Int.toNat_natCast]
  match a with
  | ⟨0, _⟩ => rfl
  | ⟨1, _⟩ => rfl
  | ⟨2, _⟩ => rfl

/-- Only the update index with the same coordinates lands at a given operand index. -/
private theorem land_inj (j : S16x1024x256.Idx) (b : Fin 16) (r : Fin 2048) (p : Fin 256) (h : r.val < 1024)
    (e : ix3 b r p = ix3 (j 0) ⟨(j 1).val, row_lt (j 1)⟩ (j 2)) : j = ix3 b ⟨r.val, h⟩ p := by
  have e0 : b = j 0 := congrFun e 0
  have e1 : r = ⟨(j 1).val, row_lt (j 1)⟩ := congrFun e 1
  have e2 : p = j 2 := congrFun e 2
  funext a
  match a with
  | ⟨0, _⟩ => exact e0.symm
  | ⟨1, _⟩ => exact Fin.ext (congrArg Fin.val e1).symm
  | ⟨2, _⟩ => exact e2.symm

/-- The final scatter read at an index: in the first 1024 rows of a batch the update's element with the same
    coordinates, in the others the operand's element. -/
private theorem scatter_read (Z : S16x2048x256.Idx → EReal) (V : S16x1024x256.Idx → EReal) (b : Fin 16) (r : Fin 2048)
    (p : Fin 256) :
    Host.scatter scatter_S16x2048x256_S1_S16x1024x256_012_n_1_0 (fun _ b => b) Z (Read.val_main_v20 (F := Ideal)) V
        (ix3 b r p)
      = if h : r.val < 1024 then V (ix3 b ⟨r.val, h⟩ p) else Z (ix3 b r p) := by
  unfold Host.scatter
  by_cases h : r.val < 1024
  · rw [dif_pos h]
    refine foldl_overwritten (ix3 b r p) (V (ix3 b ⟨r.val, h⟩ p)) _
      (fun n => S16x1024x256.rowMajor.symm n = ix3 b ⟨r.val, h⟩ p) ?_ ?_ _ _
      (Or.inr ⟨S16x1024x256.rowMajor (ix3 b ⟨r.val, h⟩ p), List.mem_finRange _, Equiv.symm_apply_apply _ _⟩)
    · intro r0 n hn
      rw [land_eq, hn]
      exact if_pos rfl
    · intro r0 n hn
      rw [land_eq]
      exact if_neg fun e => hn (land_inj _ b r p h e)
  · rw [dif_neg h]
    refine foldl_untouched (ix3 b r p) _ ?_ _ _
    intro r0 n
    rw [land_eq]
    refine if_neg fun e => h ?_
    have e1 : r = ⟨((S16x1024x256.rowMajor.symm n) 1).val, row_lt ((S16x1024x256.rowMajor.symm n) 1)⟩ := congrFun e 1
    have h1 : ((S16x1024x256.rowMajor.symm n) 1).val < 1024 := ((S16x1024x256.rowMajor.symm n) 1).isLt
    rw [e1]
    exact h1

/-- The specification's array at a constructed index. -/
private theorem arrR_ix3 (x0 : (⟨S16x1024x512, .f32⟩ : BufTy).Contents (Elt Ideal)) (x1 : (⟨S256x512, .f32⟩ : BufTy).Contents (Elt Ideal))
    (x2 : (⟨S256, .f32⟩ : BufTy).Contents (Elt Ideal)) (b : Fin 16) (r : Fin 2048) (p : Fin 256) :
    arrR x0 x1 x2 (ix3 b r p)
      = if h : r.val < 1024 then
          rowOutR (fun d => x0 (ix3 b ⟨r.val, h⟩ d)) (fun t d => x0 (ix3 b t d)) (fun p d => x1 (ix2 p d))
            (fun p => x2 (ix1 p)) p
        else zeroW := rfl

theorem ref_eq_arrR (x0 : (⟨S16x1024x512, .f32⟩ : BufTy).Contents (Elt Ideal)) (x1 : (⟨S256x512, .f32⟩ : BufTy).Contents (Elt Ideal))
    (x2 : (⟨S256, .f32⟩ : BufTy).Contents (Elt Ideal)) :
    Cert.ReferenceIdeal.Read.val_main_v21 (F := Ideal) x0 x1 x2 = Cert.AttnSpec.arrR x0 x1 x2 := by
  funext i
  obtain ⟨b, r, p, rfl⟩ : ∃ b r p, i = ix3 b r p := ⟨i 0, i 1, i 2, eq_ix3 i⟩
  unfold Read.val_main_v21
  rw [scatter_read, arrR_ix3]
  by_cases h : r.val < 1024
  · rw [dif_pos h, dif_pos h, out_eq]
  · rw [dif_neg h, dif_neg h, Read.val_main_v19_apply, Read.val_main_cst_3_apply]
    rfl

end Cert.ReferenceIdeal.RefValue

end
-- ==== Proof.Algebra.lean ====
/-
  The two arrangements of one attention row agree on finite inputs.

  With every entry of the query row and of the key/value rows a real number:
    • scaling the query row before the inner product or the inner product after it is the same
      real number (a sum of reals distributes over the scale);
    • so the rows of scores, their maxima, the numerators `exp (score − max)` and their sum agree;
      each numerator is a positive real, so the sum is a positive real;
    • dividing the combined value rows by that sum, or combining them with the divided weights,
      is the same real number (division by a nonzero real is multiplication by its reciprocal,
      which distributes over the sum).
  Nothing is assumed of the weights and the bias: they enter both arrangements alike.
-/
import proofs.«408346_j59777354826463_3_alg».proof.Proof.Spec

noncomputable section

namespace Cert.AttnSpec

open Idealize.ShloMosaic Idealize.ShloMosaic.ValueIdx

/-- A finite sum of real numbers, each read as an extended real, is the real sum read as one. -/
private theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The scale is a real number: the exponent field of its word is not all ones, so it is neither
    infinity. -/
private theorem cS_real : ∃ c : ℝ, cS = (c : EReal) := by
  have h1 : cS ≠ ⊤ := by simp [cS, Ideal.ofBits, Ideal.ieee, -EReal.coe_mul]
  have h2 : cS ≠ ⊥ := by simp [cS, Ideal.ofBits, Ideal.ieee, -EReal.coe_mul]
  exact ⟨cS.toReal, (EReal.coe_toReal h1 h2).symm⟩

/-- The word a row maximum starts from is the bottom element. -/
private theorem negInf_eq : negInf = ⊥ := by simp [negInf, Ideal.ofBits, Ideal.ieee]

/-- The maximum of a nonempty family of reals, folded from the bottom element, is a real. -/
private theorem fold_max_real {ι : Type*} (s : Finset ι) (hs : s.Nonempty) (g : ι → ℝ) :
    ∃ m : ℝ, s.fold max (⊥ : EReal) (fun t => ((g t : ℝ) : EReal)) = (m : EReal) := by
  induction hs using Finset.Nonempty.cons_induction with
  | singleton a => exact ⟨g a, by simp⟩
  | cons a s ha hs ih =>
    obtain ⟨m, hm⟩ := ih
    rw [Finset.fold_cons, hm]
    rcases max_choice ((g a : ℝ) : EReal) (m : EReal) with h | h
    · exact ⟨g a, h⟩
    · exact ⟨m, h⟩

/-- The score with the scale folded into the query row, as a real number. -/
private theorem scK_coe (qr : Fin 512 → ℝ) (kv : Fin 1024 → Fin 512 → ℝ) (c : ℝ)
    (hc : cS = (c : EReal)) (t : Fin 1024) :
    scK (fun d => (qr d : EReal)) (fun t d => (kv t d : EReal)) t
      = (((∑ d, qr d * kv t d) * c : ℝ) : EReal) := by
  show ∑ d : Fin 512, ((qr d : EReal) * cS) * (kv t d : EReal) = _
  rw [hc]
  simp only [← EReal.coe_mul]
  rw [coe_sum, Finset.sum_mul]
  exact congrArg Real.toEReal (Finset.sum_congr rfl fun d _ => by ring)

/-- The score scaled after the inner product, as the same real number. -/
private theorem scR_coe (qr : Fin 512 → ℝ) (kv : Fin 1024 → Fin 512 → ℝ) (c : ℝ)
    (hc : cS = (c : EReal)) (t : Fin 1024) :
    scR (fun d => (qr d : EReal)) (fun t d => (kv t d : EReal)) t
      = (((∑ d, qr d * kv t d) * c : ℝ) : EReal) := by
  show (∑ d : Fin 512, (qr d : EReal) * (kv t d : EReal)) * cS = _
  rw [hc]
  simp only [← EReal.coe_mul]
  rw [coe_sum, ← EReal.coe_mul]

/-- For a row of real scores the maximum is real, every numerator is the exponential of a real,
    and the denominator is a sum of positive reals: a nonzero real. -/
private theorem numer_denom_real (f : Fin 1024 → EReal) (hf : ∀ t, ∃ r : ℝ, f t = (r : EReal)) :
    ∃ (n : Fin 1024 → ℝ) (l : ℝ), l ≠ 0 ∧ (∀ t, numer f t = (n t : EReal)) ∧ denom f = (l : EReal) := by
  choose s hs using hf
  obtain rfl : f = fun t => (s t : EReal) := funext hs
  obtain ⟨m, hm⟩ := fold_max_real Finset.univ Finset.univ_nonempty s
  have hmax : rowMax (fun t => (s t : EReal)) = (m : EReal) := by
    rw [rowMax, negInf_eq]; exact hm
  have hn : ∀ t, numer (fun t => (s t : EReal)) t = ((Real.exp (s t - m) : ℝ) : EReal) := by
    intro t
    rw [numer, hmax, ← EReal.coe_sub, Ideal.exp_coe]
  refine ⟨fun t => Real.exp (s t - m), ∑ t, Real.exp (s t - m), ?_, hn, ?_⟩
  · exact (Finset.sum_pos (fun t _ => Real.exp_pos _) Finset.univ_nonempty).ne'
  · rw [denom]
    simp only [hn]
    exact coe_sum _ _

/-- The attended row: dividing the combined value rows by the sum, or combining them with the
    divided weights, is the same real number. -/
private theorem attnK_eq_attnR (q : Fin 512 → EReal) (KV : Fin 1024 → Fin 512 → EReal)
    (hq : ∀ d, ∃ r : ℝ, q d = (r : EReal)) (hKV : ∀ t d, ∃ r : ℝ, KV t d = (r : EReal))
    (d : Fin 512) : attnK q KV d = attnR q KV d := by
  choose qr hqr using hq
  choose kv hkv using hKV
  obtain rfl : q = fun d => (qr d : EReal) := funext hqr
  obtain rfl : KV = fun t d => (kv t d : EReal) := funext fun t => funext (hkv t)
  obtain ⟨c, hc⟩ := cS_real
  have hKR : scK (fun d => (qr d : EReal)) (fun t d => (kv t d : EReal))
      = scR (fun d => (qr d : EReal)) (fun t d => (kv t d : EReal)) :=
    funext fun t => (scK_coe qr kv c hc t).trans (scR_coe qr kv c hc t).symm
  obtain ⟨n, l, hl, hn, hd⟩ := numer_denom_real
    (scR (fun d => (qr d : EReal)) (fun t d => (kv t d : EReal))) fun t => ⟨_, scR_coe qr kv c hc t⟩
  rw [attnK, attnR, hKR, hd]
  simp only [hn, Ideal.div_coe hl, ← EReal.coe_mul]
  rw [coe_sum, coe_sum, ← EReal.coe_mul, Finset.sum_mul]
  exact congrArg Real.toEReal (Finset.sum_congr rfl fun t _ => by ring)

/-- One output row: the kernel's arrangement with the weights read transposed is the reference's. -/
theorem rowOutK_eq_rowOutR (q : Fin 512 → EReal) (KV : Fin 1024 → Fin 512 → EReal) (W : Fin 256 → Fin 512 → EReal)
    (Bv : Fin 256 → EReal) (p : Fin 256)
    (hq : ∀ d, ∃ r : ℝ, q d = (r : EReal)) (hKV : ∀ t d, ∃ r : ℝ, KV t d = (r : EReal)) :
    rowOutK q KV (fun d p => W p d) Bv p = rowOutR q KV W Bv p := by
  simp only [rowOutK, rowOutR, attnK_eq_attnR q KV hq hKV]

/-- The whole arrays agree when the first argument array holds real numbers. -/
theorem arrK_eq_arrR (x0 : (⟨3, ![16, 1024, 512]⟩ : Shape).Idx → EReal) (x1 : (⟨2, ![256, 512]⟩ : Shape).Idx → EReal)
    (x2 : (⟨1, ![256]⟩ : Shape).Idx → EReal) (h0 : ∀ i, ∃ r : ℝ, x0 i = (r : EReal)) :
    arrK x0 x1 x2 = arrR x0 x1 x2 := by
  funext i
  by_cases h : (i 1).val < 1024
  · simp only [arrK, arrR, dif_pos h]
    exact rowOutK_eq_rowOutR _ _ _ _ _ (fun d => h0 _) (fun t d => h0 _)
  · simp only [arrK, arrR, dif_neg h]

end Cert.AttnSpec

end
-- ==== Proof.Finite.lean ====
/-
  The precondition says every entry of every float argument is smaller in absolute value than
  +∞; for the first argument array this is read back as: every entry is a real number.
-/
import proofs.«408346_j59777354826463_3_alg».proof.Pre_finite_inputs
import proofs.«408346_j59777354826463_3_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The f32 word `0x7F800000` denotes `+∞`. -/
private theorem inf_word : Ideal.ofBits .f32 0x7F800000#32 = (⊤ : EReal) := by
  simp [Ideal.ofBits, Ideal.ieee]

/-- An extended real whose absolute value `max x (-x)` lies below `+∞` is a real number: at `⊥` and
    at `⊤` one of `x`, `-x` is `⊤`, so the maximum is `⊤`. -/
private theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- One entry: the comparison `|x| < +∞` answering the word 1 says `x` is a real number. -/
private theorem real_of_cmp (x : Ideal .f32)
    (hx : FloatOps.cmpf .olt (FloatOps.hostAbsf x) (FloatOps.ofBits (F := Ideal) .f32 0x7F800000#32) = 1#1) :
    ∃ r : ℝ, x = (r : EReal) := by
  have hc : Ideal.cmp .olt (max (x : EReal) (-(x : EReal))) (Ideal.ofBits .f32 0x7F800000#32) = 1#1 := hx
  rw [inf_word] at hc
  refine real_of_abs_lt_top x ?_
  by_contra hn
  have h0 : Ideal.cmp .olt (max (x : EReal) (-(x : EReal))) ⊤ = 0#1 := by
    simp [Ideal.cmp, hn]
  rw [h0] at hc
  exact absurd hc (by decide)

theorem real_of_pre (x0 : FVec Ideal S16x1024x512 .f32) (x1 : FVec Ideal S256x512 .f32) (x2 : FVec Ideal S256 .f32)
    (h : Cert.Pre_finite_inputs.fn (F := Ideal) x0 x1 x2 = (fun _ => 1#1)) :
    ∀ i, ∃ r : ℝ, x0 i = (r : EReal) := by
  intro i
  -- the result array has a single index
  haveI : Subsingleton S_.Idx := ⟨fun a b => funext fun d => d.elim0⟩
  have h0 := congrFun h ValueIdx.ix0
  dsimp only [Cert.Pre_finite_inputs.fn] at h0
  -- the conjunction of the three arguments' tests; the first conjunct is the first argument's
  have h1 := (IntOp.andi_eq_one.1 (IntOp.andi_eq_one.1 h0).1).1
  -- a conjunction over all entries that is 1 is 1 at every entry
  have h2 := Host.reduce_andi_all _ _ _ _ _ h1 i
  exact real_of_cmp (x0 i) h2

end Cert.FiniteInputs

end
-- ==== Proof.lean ====
/-
  The certificate: a Pallas kernel for self-attention (queries, keys and values all the same
  array) followed by a linear layer, written into the first 1024 of 2048 rows per batch and
  zeros below, against its jnp reference.

  Frames.  Each program runs to the end without a fault and leaves its arguments unchanged: for
  the kernel at the word level and idealized by one hand proof of the body at every grid point
  (three control cases by the query-tile number, the bf16 copy of a batch's keys and values
  carried in a scratch buffer from the batch's first tile to its second), for the reference by
  its run.

  Sanctioned idealization.  The one rewrite drops a narrowing to bf16 and widening back of the
  softmax numerators, which at the ideal instance is the identity.

  Equivalence over the extended reals.  The kernel folds the scale into the query rows before
  the inner products and divides by the softmax denominator after combining the value rows;
  the reference scales the inner products and combines the value rows with normalised weights.
  On finite inputs all of these are real numbers, the denominator a positive one, and the two
  arrangements are the same real by distributivity; the weights and the bias enter both alike,
  and both programs leave the zero word in the rows past the sequence length.
-/
import proofs.«408346_j59777354826463_3_alg».proof.Defs
import proofs.«408346_j59777354826463_3_alg».proof.Proof.Gen.Kernel
import proofs.«408346_j59777354826463_3_alg».proof.Proof.Gen.KernelIdeal
import proofs.«408346_j59777354826463_3_alg».proof.Proof.Gen.ReferenceIdeal
import proofs.«408346_j59777354826463_3_alg».proof.Proof.Gen.Pre_finite_inputs
import proofs.«408346_j59777354826463_3_alg».proof.Proof.Gen.ReferenceIdeal.Run
import proofs.«408346_j59777354826463_3_alg».proof.Proof.Gen.ReferenceIdeal.Read
import proofs.«408346_j59777354826463_3_alg».proof.Proof.K.Body
import proofs.«408346_j59777354826463_3_alg».proof.Proof.KI.Body
import proofs.«408346_j59777354826463_3_alg».proof.Proof.KI.Value
import proofs.«408346_j59777354826463_3_alg».proof.Proof.RefValue
import proofs.«408346_j59777354826463_3_alg».proof.Proof.Algebra
import proofs.«408346_j59777354826463_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: narrowing the softmax numerators to bf16 and widening them back. -/
theorem preserves : Cert.preserves_Kernel_KernelIdeal :=
  IdealRules.truncf_extf.statement _ .f32 .bf16

/-- Both programs end with the specification's array of the agreeing arguments: the kernel in its
    own arrangement, the reference in the other, equal because the first argument is finite. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v21_eq _ _ _).trans ?_
  rw [Cert.ReferenceIdeal.RefValue.ref_eq_arrR]
  exact (Cert.AttnSpec.arrK_eq_arrR _ _ _ (Cert.FiniteInputs.real_of_pre _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
